-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x4096x64 : Shape := ⟨4, ![4, 16, 4096, 64]⟩
abbrev S_ : Shape := ⟨0, ![]⟩

class Facts : Prop where
  bcast_S_S4x16x4096x64 : S_.BroadcastsInDim S4x16x4096x64 (![] : Fin 0 → Fin S4x16x4096x64.rank)
  reducesTo_S4x16x4096x64_S_d0_1_2_3 : S4x16x4096x64.ReducesTo [0, 1, 2, 3] S_
  h_S_ : 0 < S_.numel

variable [Facts]

def fn {F : FTy → Type} [FloatOps F] (main_arg0 : FVec F S4x16x4096x64 .f32) (main_arg1 : FVec F S4x16x4096x64 .f32) (main_arg2 : FVec F S4x16x4096x64 .f32) : IVec S_ 1 :=
  let main_v0 : FVec F S4x16x4096x64 .f32 := Host.absf main_arg0
  let main_cst : FVec F S_ .f32 := constant S_ .f32 0x7F800000#32
  let main_v1 : FVec F S4x16x4096x64 .f32 := broadcastInDim S4x16x4096x64 ![] bcast_S_S4x16x4096x64 main_cst
  let main_v2 : IVec S4x16x4096x64 1 := cmpf .olt main_v0 main_v1
  let main_c : IVec S_ 1 := constantI S_ 1 1#1
  let main_v3 : IVec S_ 1 := (fun x v => Host.reduce IntOp.andi x v reducesTo_S4x16x4096x64_S_d0_1_2_3 h_S_) main_v2 main_c
  let main_v4 : FVec F S4x16x4096x64 .f32 := Host.absf main_arg1
  let main_cst_0 : FVec F S_ .f32 := constant S_ .f32 0x7F800000#32
  let main_v5 : FVec F S4x16x4096x64 .f32 := broadcastInDim S4x16x4096x64 ![] bcast_S_S4x16x4096x64 main_cst_0
  let main_v6 : IVec S4x16x4096x64 1 := cmpf .olt main_v4 main_v5
  let main_c_1 : IVec S_ 1 := constantI S_ 1 1#1
  let main_v7 : IVec S_ 1 := (fun x v => Host.reduce IntOp.andi x v reducesTo_S4x16x4096x64_S_d0_1_2_3 h_S_) main_v6 main_c_1
  let main_v8 : IVec S_ 1 := andi main_v3 main_v7
  let main_v9 : FVec F S4x16x4096x64 .f32 := Host.absf main_arg2
  let main_cst_2 : FVec F S_ .f32 := constant S_ .f32 0x7F800000#32
  let main_v10 : FVec F S4x16x4096x64 .f32 := broadcastInDim S4x16x4096x64 ![] bcast_S_S4x16x4096x64 main_cst_2
  let main_v11 : IVec S4x16x4096x64 1 := cmpf .olt main_v9 main_v10
  let main_c_3 : IVec S_ 1 := constantI S_ 1 1#1
  let main_v12 : IVec S_ 1 := (fun x v => Host.reduce IntOp.andi x v reducesTo_S4x16x4096x64_S_d0_1_2_3 h_S_) main_v11 main_c_3
  let main_v13 : IVec S_ 1 := andi main_v8 main_v12
  main_v13
-- ==== Kernel.lean ====
abbrev S4x16x4096x64 : Shape := ⟨4, ![4, 16, 4096, 64]⟩
abbrev S1x1x4096x64 : Shape := ⟨4, ![1, 1, 4096, 64]⟩
abbrev S4096x64 : Shape := ⟨2, ![4096, 64]⟩
abbrev S64x64x64 : Shape := ⟨3, ![64, 64, 64]⟩
abbrev S64x64 : Shape := ⟨2, ![64, 64]⟩
abbrev S64x64x1 : Shape := ⟨3, ![64, 64, 1]⟩
abbrev S64x4096 : Shape := ⟨2, ![64, 4096]⟩
abbrev S64 : Shape := ⟨1, ![64]⟩
abbrev S64x1 : Shape := ⟨2, ![64, 1]⟩

abbrev nBuf : Space → Nat
  | .hbm => 4
  | .vmem => 8
  | .smem => 0
  | _ => 0

abbrev bufTy : (tb : Table) → Fin (tcTables nBuf tb) → BufTy
  | .hbm, ⟨0, _⟩ => ⟨S4x16x4096x64, .f32⟩
  | .hbm, ⟨1, _⟩ => ⟨S4x16x4096x64, .f32⟩
  | .hbm, ⟨2, _⟩ => ⟨S4x16x4096x64, .f32⟩
  | .hbm, ⟨3, _⟩ => ⟨S4x16x4096x64, .f32⟩
  | .local _ .vmem, ⟨0, _⟩ => ⟨S1x1x4096x64, .f32⟩
  | .local _ .vmem, ⟨1, _⟩ => ⟨S1x1x4096x64, .f32⟩
  | .local _ .vmem, ⟨2, _⟩ => ⟨S1x1x4096x64, .f32⟩
  | .local _ .vmem, ⟨3, _⟩ => ⟨S1x1x4096x64, .f32⟩
  | .local _ .vmem, ⟨4, _⟩ => ⟨S1x1x4096x64, .f32⟩
  | .local _ .vmem, ⟨5, _⟩ => ⟨S1x1x4096x64, .f32⟩
  | .local _ .vmem, ⟨6, _⟩ => ⟨S1x1x4096x64, .f32⟩
  | .local _ .vmem, ⟨7, _⟩ => ⟨S1x1x4096x64, .f32⟩
  | _, _ => ⟨S4x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1x4096x64_S1x1x4096x64_0_0_0_0 : ∀ a, (![0, 0, 0, 0] : Fin 4 → Nat) a + S1x1x4096x64.size a ≤ S1x1x4096x64.size a
  h_S1x1x4096x64 : 0 < S1x1x4096x64.numel
  shapeCasts_S1x1x4096x64_S4096x64 : S1x1x4096x64.ShapeCasts S4096x64
  shapeCasts_S4096x64_S64x64x64 : S4096x64.ShapeCasts S64x64x64
  bitsLt_bf16_f32 : FTy.bits .bf16 < FTy.bits .f32
  reduces_S64x64x64_S64x64 : S64x64x64.Reduces [2] S64x64
  shapeCasts_S64x64_S64x64x1 : S64x64.ShapeCasts S64x64x1
  broadcasts_S64x64x1_S64x64x64 : S64x64x1.Broadcasts S64x64x64
  shapeCasts_S64x64x64_S64x4096 : S64x64x64.ShapeCasts S64x4096
  shapeCasts_S4096x64_S64x4096 : S4096x64.ShapeCasts S64x4096
  reduces_S64x64_S64 : S64x64.Reduces [1] S64
  shapeCasts_S64_S64x1 : S64.ShapeCasts S64x1
  broadcasts_S64x1_S64x64 : S64x1.Broadcasts S64x64
  shapeCasts_S64x4096_S4096x64 : S64x4096.ShapeCasts S4096x64
  shapeCasts_S4096x64_S1x1x4096x64 : S4096x64.ShapeCasts S1x1x4096x64
  dot_S64x64x64_S64x64x64_S64x64x64_2_2_1_1_0_0_wf : DotDims.WF S64x64x64 S64x64x64 S64x64x64 [2] [2] [1] [1] [0] [0]
  dot_S64x64x64_S64x64x64_S64x64x64_2_1_1_2_0_0_wf : DotDims.WF S64x64x64 S64x64x64 S64x64x64 [2] [1] [1] [2] [0] [0]
  dot_S64x4096_S64x4096_S64x64_1_1_0_0_n_n_wf : DotDims.WF S64x4096 S64x4096 S64x64 [1] [1] [0] [0] [] []
  dot_S64x64_S64x4096_S64x4096_1_0_0_1_n_n_wf : DotDims.WF S64x64 S64x4096 S64x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4096x64.size a ≤ S4x16x4096x64.size a
  hwx0_0 : ∀ i : grid0.Coords, EltTy.bits .f32 = 32 ∨ (Rect.block (s := S4x16x4096x64) S1x1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096x64.size a ≤ S4x16x4096x64.size a
  hwx0_1 : ∀ i : grid0.Coords, EltTy.bits .f32 = 32 ∨ (Rect.block (s := S4x16x4096x64) S1x1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096x64.size a ≤ S4x16x4096x64.size a
  hwx0_2 : ∀ i : grid0.Coords, EltTy.bits .f32 = 32 ∨ (Rect.block (s := S4x16x4096x64) S1x1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096x64.size a ≤ S4x16x4096x64.size a
  hwx0_3 : ∀ i : grid0.Coords, EltTy.bits .f32 = 32 ∨ (Rect.block (s := S4x16x4096x64) S1x1x4096x64.size (cc0_transform_3 i) (hinb0_3 i)).WholeWords (EltTy.packing .f32)

variable [Facts₀]

def dot_S64x64x64_S64x64x64_S64x64x64_2_2_1_1_0_0 : DotDims S64x64x64 S64x64x64 S64x64x64 where
  lhsContracting := [2]
  rhsContracting := [2]
  lhsNonContracting := [1]
  rhsNonContracting := [1]
  lhsBatch := [0]
  rhsBatch := [0]
  wf := dot_S64x64x64_S64x64x64_S64x64x64_2_2_1_1_0_0_wf
def dot_S64x64x64_S64x64x64_S64x64x64_2_1_1_2_0_0 : DotDims S64x64x64 S64x64x64 S64x64x64 where
  lhsContracting := [2]
  rhsContracting := [1]
  lhsNonContracting := [1]
  rhsNonContracting := [2]
  lhsBatch := [0]
  rhsBatch := [0]
  wf := dot_S64x64x64_S64x64x64_S64x64x64_2_1_1_2_0_0_wf
def dot_S64x4096_S64x4096_S64x64_1_1_0_0_n_n : DotDims S64x4096 S64x4096 S64x64 where
  lhsContracting := [1]
  rhsContracting := [1]
  lhsNonContracting := [0]
  rhsNonContracting := [0]
  lhsBatch := []
  rhsBatch := []
  wf := dot_S64x4096_S64x4096_S64x64_1_1_0_0_n_n_wf
def dot_S64x64_S64x4096_S64x4096_1_0_0_1_n_n : DotDims S64x64 S64x4096 S64x4096 where
  lhsContracting := [1]
  rhsContracting := [0]
  lhsNonContracting := [0]
  rhsNonContracting := [1]
  lhsBatch := []
  rhsBatch := []
  wf := dot_S64x64_S64x4096_S64x4096_1_0_0_1_n_n_wf

abbrev win0_0 : Pipeline.Window sig grid0 :=
  Pipeline.Window.ofSpec (Memref.whole main_arg0) S1x1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x4096x64 : Shape := ⟨4, ![4, 16, 4096, 64]⟩
abbrev S4x16x64x64x64 : Shape := ⟨5, ![4, 16, 64, 64, 64]⟩
abbrev S_ : Shape := ⟨0, ![]⟩
abbrev S4x16x64x64 : Shape := ⟨4, ![4, 16, 64, 64]⟩
abbrev S4x16x64x64x1 : Shape := ⟨5, ![4, 16, 64, 64, 1]⟩
abbrev S4x16x64x4096 : Shape := ⟨4, ![4, 16, 64, 4096]⟩
abbrev S4x16x64 : Shape := ⟨3, ![4, 16, 64]⟩
abbrev S4x16x64x1 : Shape := ⟨4, ![4, 16, 64, 1]⟩

abbrev nBuf : Space → Nat
  | .hbm => 48
  | .vmem => 0
  | .smem => 0
  | _ => 0

abbrev bufTy : (tb : Table) → Fin (tcTables nBuf tb) → BufTy
  | .hbm, ⟨0, _⟩ => ⟨S4x16x4096x64, .f32⟩
  | .hbm, ⟨1, _⟩ => ⟨S4x16x4096x64, .f32⟩
  | .hbm, ⟨2, _⟩ => ⟨S4x16x4096x64, .f32⟩
  | .hbm, ⟨3, _⟩ => ⟨S4x16x64x64x64, .f32⟩
  | .hbm, ⟨4, _⟩ => ⟨S4x16x64x64x64, .f32⟩
  | .hbm, ⟨5, _⟩ => ⟨S4x16x64x64x64, .f32⟩
  | .hbm, ⟨6, _⟩ => ⟨S_, .f32⟩
  | .hbm, ⟨7, _⟩ => ⟨S4x16x64x64x64, .f32⟩
  | .hbm, ⟨8, _⟩ => ⟨S4x16x64x64x64, .f32⟩
  | .hbm, ⟨9, _⟩ => ⟨S4x16x64x64x64, .f32⟩
  | .hbm, ⟨10, _⟩ => ⟨S_, .f32⟩
  | .hbm, ⟨11, _⟩ => ⟨S4x16x64x64, .f32⟩
  | .hbm, ⟨12, _⟩ => ⟨S_, .f32⟩
  | .hbm, ⟨13, _⟩ => ⟨S4x16x64x64, .f32⟩
  | .hbm, ⟨14, _⟩ => ⟨S4x16x64x64, .f32⟩
  | .hbm, ⟨15, _⟩ => ⟨S4x16x64x64x1, .f32⟩
  | .hbm, ⟨16, _⟩ => ⟨S4x16x64x64x64, .f32⟩
  | .hbm, ⟨17, _⟩ => ⟨S4x16x64x64x64, .f32⟩
  | .hbm, ⟨18, _⟩ => ⟨S4x16x64x64x64, .f32⟩
  | .hbm, ⟨19, _⟩ => ⟨S_, .f32⟩
  | .hbm, ⟨20, _⟩ => ⟨S4x16x64x64, .f32⟩
  | .hbm, ⟨21, _⟩ => ⟨S4x16x64x64x1, .f32⟩
  | .hbm, ⟨22, _⟩ => ⟨S4x16x64x64x64, .f32⟩
  | .hbm, ⟨23, _⟩ => ⟨S4x16x64x64x64, .f32⟩
  | .hbm, ⟨24, _⟩ => ⟨S4x16x64x64x64, .f32⟩
  | .hbm, ⟨25, _⟩ => ⟨S4x16x64x4096, .f32⟩
  | .hbm, ⟨26, _⟩ => ⟨S4x16x64x4096, .f32⟩
  | .hbm, ⟨27, _⟩ => ⟨S_, .f32⟩
  | .hbm, ⟨28, _⟩ => ⟨S4x16x64x4096, .f32⟩
  | .hbm, ⟨29, _⟩ => ⟨S4x16x64x4096, .f32⟩
  | .hbm, ⟨30, _⟩ => ⟨S4x16x64x4096, .f32⟩
  | .hbm, ⟨31, _⟩ => ⟨S4x16x64x64, .f32⟩
  | .hbm, ⟨32, _⟩ => ⟨S_, .f32⟩
  | .hbm, ⟨33, _⟩ => ⟨S4x16x64, .f32⟩
  | .hbm, ⟨34, _⟩ => ⟨S_, .f32⟩
  | .hbm, ⟨35, _⟩ => ⟨S4x16x64, .f32⟩
  | .hbm, ⟨36, _⟩ => ⟨S4x16x64, .f32⟩
  | .hbm, ⟨37, _⟩ => ⟨S4x16x64x1, .f32⟩
  | .hbm, ⟨38, _⟩ => ⟨S4x16x64x64, .f32⟩
  | .hbm, ⟨39, _⟩ => ⟨S4x16x64x64, .f32⟩
  | .hbm, ⟨40, _⟩ => ⟨S4x16x64x64, .f32⟩
  | .hbm, ⟨41, _⟩ => ⟨S_, .f32⟩
  | .hbm, ⟨42, _⟩ => ⟨S4x16x64, .f32⟩
  | .hbm, ⟨43, _⟩ => ⟨S4x16x64x1, .f32⟩
  | .hbm, ⟨44, _⟩ => ⟨S4x16x64x64, .f32⟩
  | .hbm, ⟨45, _⟩ => ⟨S4x16x64x64, .f32⟩
  | .hbm, ⟨46, _⟩ => ⟨S4x16x64x4096, .f32⟩
  | .hbm, ⟨47, _⟩ => ⟨S4x16x4096x64, .f32⟩
  | _, _ => ⟨S4x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]

class Facts₀ : Prop where
  shapeCasts_S4x16x4096x64_S4x16x64x64x64 : S4x16x4096x64.ShapeCasts S4x16x64x64x64
  bcast_S_S4x16x64x64x64 : S_.BroadcastsInDim S4x16x64x64x64 (![] : Fin 0 → Fin S4x16x64x64x64.rank)
  reducesTo_S4x16x64x64x64_S4x16x64x64_d4 : S4x16x64x64x64.ReducesTo [4] S4x16x64x64
  h_S_ : 0 < S_.numel
  bcast_S_S4x16x64x64 : S_.BroadcastsInDim S4x16x64x64 (![] : Fin 0 → Fin S4x16x64x64.rank)
  bcast_S4x16x64x64_S4x16x64x64x1_0_1_2_3 : S4x16x64x64.BroadcastsInDim S4x16x64x64x1 (![0, 1, 2, 3] : Fin 4 → Fin S4x16x64x64x1.rank)
  bcast_S4x16x64x64x1_S4x16x64x64x64_0_1_2_3_4 : S4x16x64x64x1.BroadcastsInDim S4x16x64x64x64 (![0, 1, 2, 3, 4] : Fin 5 → Fin S4x16x64x64x64.rank)
  shapeCasts_S4x16x64x64x64_S4x16x64x4096 : S4x16x64x64x64.ShapeCasts S4x16x64x4096
  shapeCasts_S4x16x4096x64_S4x16x64x4096 : S4x16x4096x64.ShapeCasts S4x16x64x4096
  bcast_S_S4x16x64x4096 : S_.BroadcastsInDim S4x16x64x4096 (![] : Fin 0 → Fin S4x16x64x4096.rank)
  reducesTo_S4x16x64x64_S4x16x64_d3 : S4x16x64x64.ReducesTo [3] S4x16x64
  bcast_S_S4x16x64 : S_.BroadcastsInDim S4x16x64 (![] : Fin 0 → Fin S4x16x64.rank)
  bcast_S4x16x64_S4x16x64x1_0_1_2 : S4x16x64.BroadcastsInDim S4x16x64x1 (![0, 1, 2] : Fin 3 → Fin S4x16x64x1.rank)
  bcast_S4x16x64x1_S4x16x64x64_0_1_2_3 : S4x16x64x1.BroadcastsInDim S4x16x64x64 (![0, 1, 2, 3] : Fin 4 → Fin S4x16x64x64.rank)
  shapeCasts_S4x16x64x4096_S4x16x4096x64 : S4x16x64x4096.ShapeCasts S4x16x4096x64
  dot_S4x16x64x64x64_S4x16x64x64x64_S4x16x64x64x64_4_4_3_3_012_012_wf : DotDims.WF S4x16x64x64x64 S4x16x64x64x64 S4x16x64x64x64 [4] [4] [3] [3] [0, 1, 2] [0, 1, 2]
  dot_S4x16x64x64x64_S4x16x64x64x64_S4x16x64x64x64_4_3_3_4_012_012_wf : DotDims.WF S4x16x64x64x64 S4x16x64x64x64 S4x16x64x64x64 [4] [3] [3] [4] [0, 1, 2] [0, 1, 2]
  dot_S4x16x64x4096_S4x16x64x4096_S4x16x64x64_3_3_2_2_01_01_wf : DotDims.WF S4x16x64x4096 S4x16x64x4096 S4x16x64x64 [3] [3] [2] [2] [0, 1] [0, 1]
  dot_S4x16x64x64_S4x16x64x4096_S4x16x64x4096_3_2_2_3_01_01_wf : DotDims.WF S4x16x64x64 S4x16x64x4096 S4x16x64x4096 [3] [2] [2] [3] [0, 1] [0, 1]

variable [Facts₀]

def dot_S4x16x64x64x64_S4x16x64x64x64_S4x16x64x64x64_4_4_3_3_012_012 : DotDims S4x16x64x64x64 S4x16x64x64x64 S4x16x64x64x64 where
  lhsContracting := [4]
  rhsContracting := [4]
  lhsNonContracting := [3]
  rhsNonContracting := [3]
  lhsBatch := [0, 1, 2]
  rhsBatch := [0, 1, 2]
  wf := dot_S4x16x64x64x64_S4x16x64x64x64_S4x16x64x64x64_4_4_3_3_012_012_wf
def dot_S4x16x64x64x64_S4x16x64x64x64_S4x16x64x64x64_4_3_3_4_012_012 : DotDims S4x16x64x64x64 S4x16x64x64x64 S4x16x64x64x64 where
  lhsContracting := [4]
  rhsContracting := [3]
  lhsNonContracting := [3]
  rhsNonContracting := [4]
  lhsBatch := [0, 1, 2]
  rhsBatch := [0, 1, 2]
  wf := dot_S4x16x64x64x64_S4x16x64x64x64_S4x16x64x64x64_4_3_3_4_012_012_wf
def dot_S4x16x64x4096_S4x16x64x4096_S4x16x64x64_3_3_2_2_01_01 : DotDims S4x16x64x4096 S4x16x64x4096 S4x16x64x64 where
  lhsContracting := [3]
  rhsContracting := [3]
  lhsNonContracting := [2]
  rhsNonContracting := [2]
  lhsBatch := [0, 1]
  rhsBatch := [0, 1]
  wf := dot_S4x16x64x4096_S4x16x64x4096_S4x16x64x64_3_3_2_2_01_01_wf
def dot_S4x16x64x64_S4x16x64x4096_S4x16x64x4096_3_2_2_3_01_01 : DotDims S4x16x64x64 S4x16x64x4096 S4x16x64x4096 where
  lhsContracting := [3]
  rhsContracting := [2]
  lhsNonContracting := [2]
  rhsNonContracting := [3]
  lhsBatch := [0, 1]
  rhsBatch := [0, 1]
  wf := dot_S4x16x64x64_S4x16x64x4096_S4x16x64x4096_3_2_2_3_01_01_wf

class Facts : Prop extends Facts₀ where

variable [Facts]
-- ==== Proof.KStages.lean ====
/-
  The kernel's body, stage by stage, at the ideal values.

  One grid point works on one (batch, head) slice: three [4096, 64] blocks q, k, v. The body splits the 4096 rows into 64
  groups of 64 rows and computes, in this order,
    * the local logits  l1[g, s, t] = sum over d of (q[64 g + s, d] * 2^-3) * k[64 g + t, d],
    * their row maximum guarded by -inf, the exponentials of the differences, the row sums and the quotients (a softmax
      over t),
    * the local mix  xl[g, s, d] = sum over t of a1[g, s, t] * v[64 g + t, d], re-laid as a [64, 4096] matrix,
    * the coarse logits  l2[g, f] = sum over e of (q'[g, e] * 2^-6) * k'[f, e]  for the same blocks read as [64, 4096],
    * a second softmax over f, and the product of its quotients with the re-laid local mix,
  and stores that product, read again as [4096, 64], as the block of the result.
  Each stage below is one of those arrays as a function of the blocks; the payload terms of the body are these stages
  composed, definitionally.
-/
import proofs.«180596_j34325378629691_1_alg».proof.Proof.Gen.KernelIdeal.Skeleton
import Idealize.ShloMosaic.PureOps.Ideal.Laws

noncomputable section

namespace Cert.KernelIdeal.Stages

open Idealize.ShloMosaic Idealize.SL.Sem Cert.KernelIdeal Cert.KernelIdeal.Gen

variable (x0 x1 x2 : Vec Ideal S1x1x4096x64 .f32)

/-! ## The blocks as matrices -/

/-- The value block as a [4096, 64] matrix. -/
def vRows : FVec Ideal S4096x64 .f32 := shapeCast S4096x64 x2 shapeCasts_S1x1x4096x64_S4096x64

/-- The query rows in 64 groups of 64. -/
def qGrp : FVec Ideal S64x64x64 .f32 := shapeCast S64x64x64 (k0_pay2 x0) shapeCasts_S4096x64_S64x64x64
/-- The key rows in 64 groups of 64. -/
def kGrp : FVec Ideal S64x64x64 .f32 := shapeCast S64x64x64 (k0_pay3 x1) shapeCasts_S4096x64_S64x64x64
/-- The value rows in 64 groups of 64. -/
def vGrp : FVec Ideal S64x64x64 .f32 := shapeCast S64x64x64 (vRows x2) shapeCasts_S4096x64_S64x64x64

/-! ## The local attention -/

/-- The local logits: within a group, scaled query rows against key rows. -/
def logits1 : FVec Ideal S64x64x64 .f32 :=
  matmul dot_S64x64x64_S64x64x64_S64x64x64_2_2_1_1_0_0 none
    (truncf .bf16 (mulf (qGrp x0) (broadcast S64x64x64 (Scalar.ofBits .f32 0x3E000000#32))) bitsLt_bf16_f32)
    (truncf .bf16 (kGrp x1) bitsLt_bf16_f32) (constant S64x64x64 .f32 0x00000000#32)

/-- The guarded maximum of each row of local logits. -/
def max1 : FVec Ideal S64x64 .f32 :=
  maximumf (broadcast S64x64 (Scalar.ofBits .f32 0xFF800000#32))
    (multiReduction .maximumf [2] S64x64 (logits1 x0 x1) 0xFF800000#32 reduces_S64x64x64_S64x64 (.inl rfl) rfl)

/-- The exponentials of the local logits less their row maximum. -/
def exp1 : FVec Ideal S64x64x64 .f32 :=
  exp (subf (logits1 x0 x1)
    (broadcastTo S64x64x64 (shapeCast S64x64x1 (max1 x0 x1) shapeCasts_S64x64_S64x64x1) broadcasts_S64x64x1_S64x64x64))

/-- Their row sums. -/
def den1 : FVec Ideal S64x64 .f32 :=
  multiReduction .add [2] S64x64 (exp1 x0 x1) 0x00000000#32 reduces_S64x64x64_S64x64 (.inl rfl) rfl

/-- The local attention weights. -/
def attn1 : FVec Ideal S64x64x64 .f32 :=
  divf (exp1 x0 x1)
    (broadcastTo S64x64x64 (shapeCast S64x64x1 (den1 x0 x1) shapeCasts_S64x64_S64x64x1) broadcasts_S64x64x1_S64x64x64)

/-- The local mix of value rows. -/
def mix1 : FVec Ideal S64x64x64 .f32 :=
  matmul dot_S64x64x64_S64x64x64_S64x64x64_2_1_1_2_0_0 none
    (truncf .bf16 (attn1 x0 x1) bitsLt_bf16_f32) (truncf .bf16 (vGrp x2) bitsLt_bf16_f32) (constant S64x64x64 .f32 0x00000000#32)

/-- The local mix with each group's 64 rows laid end to end. -/
def mix1Wide : FVec Ideal S64x4096 .f32 := shapeCast S64x4096 (mix1 x0 x1 x2) shapeCasts_S64x64x64_S64x4096

theorem pay4_eq : k0_pay4 (F := Ideal) x0 x1 x2 = mix1Wide x0 x1 x2 := rfl

/-! ## The coarse attention -/

/-- The query block with each group's 64 rows laid end to end. -/
def qWide : FVec Ideal S64x4096 .f32 := shapeCast S64x4096 (k0_pay2 x0) shapeCasts_S4096x64_S64x4096
/-- The key block likewise. -/
def kWide : FVec Ideal S64x4096 .f32 := shapeCast S64x4096 (k0_pay3 x1) shapeCasts_S4096x64_S64x4096

/-- The coarse logits: scaled wide query rows against wide key rows. -/
def logits2 : FVec Ideal S64x64 .f32 :=
  matmul dot_S64x4096_S64x4096_S64x64_1_1_0_0_n_n none
    (truncf .bf16 (mulf (qWide x0) (broadcast S64x4096 (Scalar.ofBits .f32 0x3C800000#32))) bitsLt_bf16_f32)
    (truncf .bf16 (kWide x1) bitsLt_bf16_f32) (constant S64x64 .f32 0x00000000#32)

theorem pay5_eq : k0_pay5 (F := Ideal) x0 x1 = logits2 x0 x1 := rfl

/-- The maximum of each row of coarse logits. -/
def rowMax2 : FVec Ideal S64 .f32 :=
  multiReduction .maximumf [1] S64 (logits2 x0 x1) 0xFF800000#32 reduces_S64x64_S64 (.inl rfl) rfl

theorem pay6_eq : k0_pay6 (F := Ideal) x0 x1 = rowMax2 x0 x1 := rfl

variable (w : FVec Ideal S64x4096 .f32) (l : FVec Ideal S64x64 .f32) (r : FVec Ideal S64 .f32)

/-- The guarded row maximum. -/
def max2 : FVec Ideal S64 .f32 := maximumf (broadcast S64 (Scalar.ofBits .f32 0xFF800000#32)) r

/-- The exponentials of the coarse logits less their row maximum. -/
def exp2 : FVec Ideal S64x64 .f32 :=
  exp (subf l (broadcastTo S64x64 (shapeCast S64x1 (max2 r) shapeCasts_S64_S64x1) broadcasts_S64x1_S64x64))

/-- Their row sums. -/
def den2 : FVec Ideal S64 .f32 := multiReduction .add [1] S64 (exp2 l r) 0x00000000#32 reduces_S64x64_S64 (.inl rfl) rfl

/-- The coarse attention weights. -/
def attn2 : FVec Ideal S64x64 .f32 :=
  divf (exp2 l r) (broadcastTo S64x64 (shapeCast S64x1 (den2 l r) shapeCasts_S64_S64x1) broadcasts_S64x1_S64x64)

/-- The coarse mix of the wide local rows. -/
def mix2 : FVec Ideal S64x4096 .f32 :=
  matmul dot_S64x64_S64x4096_S64x4096_1_0_0_1_n_n none
    (truncf .bf16 (attn2 l r) bitsLt_bf16_f32) (truncf .bf16 w bitsLt_bf16_f32) (constant S64x4096 .f32 0x00000000#32)

/-- The result block: the coarse mix read again as 4096 rows of 64. -/
def outBlock : FVec Ideal S1x1x4096x64 .f32 :=
  shapeCast S1x1x4096x64 (shapeCast S4096x64 (mix2 w l r) shapeCasts_S64x4096_S4096x64) shapeCasts_S4096x64_S1x1x4096x64

theorem pay1_eq : k0_pay1 (F := Ideal) w l r = outBlock w l r := rfl

end Cert.KernelIdeal.Stages

end
-- ==== Proof.BridgeRows.lean ====
/-
  A grid point's blocks against the whole arrays: the re-laid rows.

  Grid point (b, h) is handed the slices X[b, h, :, :] of the three arguments. Both programs then read a slice's 4096 rows as
  64 groups of 64 rows: row 64 g + s is row s of group g. The kernel does so on its block, the reference on the whole
  [4, 16, 4096, 64] array with the leading coordinates (b, h) carried along; at matching indices they hold the same entry.
-/
import proofs.«180596_j34325378629691_1_alg».proof.Proof.KStages
import proofs.«180596_j34325378629691_1_alg».proof.Proof.Gen.ReferenceIdeal.Read
import Idealize.ShloMosaic.Lib.ValueIdx
import Idealize.ShloMosaic.Lib.Pipeline.Value

noncomputable section

namespace Cert.Bridge

open Idealize.ShloMosaic Idealize.ShloMosaic.ValueIdx
open Cert.KernelIdeal.Stages Cert.ReferenceIdeal.Read

/-- An argument array at the ideal values. -/
abbrev Arr : Type := (⟨Cert.ReferenceIdeal.S4x16x4096x64, .f32⟩ : BufTy).Contents (Elt Ideal)

/-- A staged block at the ideal values. -/
abbrev Blk : Type := Vec Ideal Cert.KernelIdeal.S1x1x4096x64 .f32

/-- Position `64 a + c` of a run of 4096: row `c` of group `a`, or entry `c` of the `a`-th stretch of a wide row. -/
def cat (a c : Fin 64) : Fin 4096 := ⟨a.val * 64 + c.val, by omega⟩

theorem cat_val (a c : Fin 64) : (cat a c).val = a.val * 64 + c.val := rfl

/-- The block `x` is the slice `X[b, h, :, :]`. -/
def IsSlice (b : Fin 4) (h : Fin 16) (X : Arr) (x : Blk) : Prop :=
  ∀ (n : Fin 4096) (d : Fin 64), x (ix4 0 0 n d) = X (ix4 b h n d)

variable {b : Fin 4} {h : Fin 16} {X : Arr} {x : Blk}

/-- A block read as a [4096, 64] matrix. -/
theorem rows_at (x : Blk) (n : Fin 4096) (d : Fin 64) :
    shapeCast Cert.KernelIdeal.S4096x64 x Cert.KernelIdeal.Gen.shapeCasts_S1x1x4096x64_S4096x64 (ix2 n d) = x (ix4 0 0 n d) :=
  shapeCast_apply x _ (ix2 n d) (ix4 0 0 n d) (by
    rw [Shape.rowMajor_val_four, Shape.rowMajor_val_two]
    show ((0 * 1 + 0) * 4096 + n.val) * 64 + d.val = n.val * 64 + d.val
    omega)

/-- A [4096, 64] matrix read in 64 groups of 64 rows. -/
theorem grp_at (y : FVec Ideal Cert.KernelIdeal.S4096x64 .f32) (g s d : Fin 64) :
    shapeCast Cert.KernelIdeal.S64x64x64 y Cert.KernelIdeal.Gen.shapeCasts_S4096x64_S64x64x64 (ix3 g s d) = y (ix2 (cat g s) d) :=
  shapeCast_apply y _ (ix3 g s d) (ix2 (cat g s) d) (by
    rw [Shape.rowMajor_val_two, Shape.rowMajor_val_three]
    show (g.val * 64 + s.val) * 64 + d.val = (g.val * 64 + s.val) * 64 + d.val
    rfl)

/-- The reference's grouped rows of the whole array sit over row `64 g + s` of the slice. -/
theorem idx_grp (g s d : Fin 64) : idx_main_v0 (ix5 b h g s d) = ix4 b h (cat g s) d := by
  funext a
  match a with
  | ⟨0, _⟩ => exact Fin.ext (by show (((((b.val * 16 + h.val) * 64 + g.val) * 64 + s.val) * 64 + d.val) / 4194304) = b.val; omega)
  | ⟨1, _⟩ => exact Fin.ext (by show (((((b.val * 16 + h.val) * 64 + g.val) * 64 + s.val) * 64 + d.val) / 262144 % 16) = h.val; omega)
  | ⟨2, _⟩ => exact Fin.ext (by show (((((b.val * 16 + h.val) * 64 + g.val) * 64 + s.val) * 64 + d.val) / 64 % 4096) = g.val * 64 + s.val; omega)
  | ⟨3, _⟩ => exact Fin.ext (by show (((((b.val * 16 + h.val) * 64 + g.val) * 64 + s.val) * 64 + d.val) % 64) = d.val; omega)

/-- The grouped query rows: kernel block against whole array. -/
theorem qGrp_eq (hx : IsSlice b h X x) (g s d : Fin 64) : qGrp x (ix3 g s d) = val_main_v0 (F := Ideal) X (ix5 b h g s d) := by
  rw [val_main_v0_apply, idx_grp]
  exact (grp_at _ g s d).trans ((rows_at x _ d).trans (hx _ d))

/-- The grouped key rows. -/
theorem kGrp_eq (hx : IsSlice b h X x) (g s d : Fin 64) : kGrp x (ix3 g s d) = val_main_v1 (F := Ideal) X (ix5 b h g s d) := by
  rw [val_main_v1_apply]
  exact (grp_at _ g s d).trans ((rows_at x _ d).trans ((hx _ d).trans (congrArg X (idx_grp g s d).symm)))

/-- The grouped value rows. -/
theorem vGrp_eq (hx : IsSlice b h X x) (g s d : Fin 64) : vGrp x (ix3 g s d) = val_main_v2 (F := Ideal) X (ix5 b h g s d) := by
  rw [val_main_v2_apply]
  exact (grp_at _ g s d).trans ((rows_at x _ d).trans ((hx _ d).trans (congrArg X (idx_grp g s d).symm)))

end Cert.Bridge

end
-- ==== Proof.KDots.lean ====
/-
  The kernel's four matrix products at an entry, at the ideal values.

  Into a zero accumulator a matrix product is, entry by entry, the plain sum over the contracted coordinate of the products
  of the operands' entries; no rounding and no order of summation is left at the ideal values. For each of the four
  products of the body this module names the two operand entries under each term of that sum: the batched products of the
  local attention carry the group coordinate along, the two products of the coarse attention are plain.
-/
import proofs.«180596_j34325378629691_1_alg».proof.Proof.Gen.KernelIdeal
import Idealize.ShloMosaic.PureOps.Ideal.Laws
import Idealize.ShloMosaic.Lib.ValueIdx

noncomputable section

namespace Cert.KernelIdeal.Dots

open Idealize.ShloMosaic Idealize.ShloMosaic.ValueIdx Cert.KernelIdeal Cert.KernelIdeal.Gen

/-! ## The local logits: [g, s, k] against [g, t, k]

The group is a batch coordinate of both operands, the row s is free on the left, the row t free on the right, and the
feature k is contracted on both. -/

theorem lhs_logits1_0 (i : S64x64x64.Idx) (q : dot_S64x64x64_S64x64x64_S64x64x64_2_2_1_1_0_0.contr.Idx) :
    (dot_S64x64x64_S64x64x64_S64x64x64_2_2_1_1_0_0.lhsIdx i q 0).val = (i 0).val := by
  unfold DotDims.lhsIdx
  rw [dif_pos (show (0 : Fin S64x64x64.rank) ∈ dot_S64x64x64_S64x64x64_S64x64x64_2_2_1_1_0_0.lhsBatch by decide)]
  rfl
theorem lhs_logits1_1 (i : S64x64x64.Idx) (q : dot_S64x64x64_S64x64x64_S64x64x64_2_2_1_1_0_0.contr.Idx) :
    (dot_S64x64x64_S64x64x64_S64x64x64_2_2_1_1_0_0.lhsIdx i q 1).val = (i 1).val := by
  unfold DotDims.lhsIdx
  rw [dif_neg (show ¬(1 : Fin S64x64x64.rank) ∈ dot_S64x64x64_S64x64x64_S64x64x64_2_2_1_1_0_0.lhsBatch by decide), dif_pos (show (1 : Fin S64x64x64.rank) ∈ dot_S64x64x64_S64x64x64_S64x64x64_2_2_1_1_0_0.lhsNonContracting by decide)]
  rfl
theorem lhs_logits1_2 (i : S64x64x64.Idx) (q : dot_S64x64x64_S64x64x64_S64x64x64_2_2_1_1_0_0.contr.Idx) :
    (dot_S64x64x64_S64x64x64_S64x64x64_2_2_1_1_0_0.lhsIdx i q 2).val = (q ⟨0, by decide⟩).val :=
  dot_S64x64x64_S64x64x64_S64x64x64_2_2_1_1_0_0.lhsIdx_val_of_single rfl i q
theorem rhs_logits1_0 (i : S64x64x64.Idx) (q : dot_S64x64x64_S64x64x64_S64x64x64_2_2_1_1_0_0.contr.Idx) :
    (dot_S64x64x64_S64x64x64_S64x64x64_2_2_1_1_0_0.rhsIdx i q 0).val = (i 0).val := by
  unfold DotDims.rhsIdx
  rw [dif_pos (show (0 : Fin S64x64x64.rank) ∈ dot_S64x64x64_S64x64x64_S64x64x64_2_2_1_1_0_0.rhsBatch by decide)]
  rfl
theorem rhs_logits1_1 (i : S64x64x64.Idx) (q : dot_S64x64x64_S64x64x64_S64x64x64_2_2_1_1_0_0.contr.Idx) :
    (dot_S64x64x64_S64x64x64_S64x64x64_2_2_1_1_0_0.rhsIdx i q 1).val = (i 2).val := by
  unfold DotDims.rhsIdx
  rw [dif_neg (show ¬(1 : Fin S64x64x64.rank) ∈ dot_S64x64x64_S64x64x64_S64x64x64_2_2_1_1_0_0.rhsBatch by decide), dif_pos (show (1 : Fin S64x64x64.rank) ∈ dot_S64x64x64_S64x64x64_S64x64x64_2_2_1_1_0_0.rhsNonContracting by decide)]
  rfl
theorem rhs_logits1_2 (i : S64x64x64.Idx) (q : dot_S64x64x64_S64x64x64_S64x64x64_2_2_1_1_0_0.contr.Idx) :
    (dot_S64x64x64_S64x64x64_S64x64x64_2_2_1_1_0_0.rhsIdx i q 2).val = (q ⟨0, by decide⟩).val :=
  dot_S64x64x64_S64x64x64_S64x64x64_2_2_1_1_0_0.rhsIdx_val_of_single rfl i q

/-- Entry (g, s, t) of the local logits' product sums, over the feature k, the left operand at (g, s, k) times the right
    operand at (g, t, k). -/
theorem logits1_dot_apply (l : FVec Ideal S64x64x64 .bf16) (r : FVec Ideal S64x64x64 .bf16) (g s t : Fin 64) :
    matmul dot_S64x64x64_S64x64x64_S64x64x64_2_2_1_1_0_0 none l r (constant S64x64x64 .f32 0x00000000#32) (ix3 g s t)
      = ∑ k : Fin 64, (l (ix3 g s k) : EReal) * (r (ix3 g t k) : EReal) := by
  simp only [matmul]
  rw [Ideal.matmul_constant_zero_apply, ← Equiv.sum_comp (ValueIdx.contrEquiv1 dot_S64x64x64_S64x64x64_S64x64x64_2_2_1_1_0_0 64 rfl rfl).symm]
  refine Finset.sum_congr rfl fun k _ => ?_
  have hk := ValueIdx.contrEquiv1_symm_val dot_S64x64x64_S64x64x64_S64x64x64_2_2_1_1_0_0 64 rfl rfl k
  have el : dot_S64x64x64_S64x64x64_S64x64x64_2_2_1_1_0_0.lhsIdx (ix3 g s t) ((ValueIdx.contrEquiv1 dot_S64x64x64_S64x64x64_S64x64x64_2_2_1_1_0_0 64 rfl rfl).symm k) = ix3 g s k := funext fun a => Fin.ext (by
    match a with
    | ⟨0, _⟩ => exact lhs_logits1_0 _ _
    | ⟨1, _⟩ => exact lhs_logits1_1 _ _
    | ⟨2, _⟩ => exact (lhs_logits1_2 _ _).trans hk)
  have er : dot_S64x64x64_S64x64x64_S64x64x64_2_2_1_1_0_0.rhsIdx (ix3 g s t) ((ValueIdx.contrEquiv1 dot_S64x64x64_S64x64x64_S64x64x64_2_2_1_1_0_0 64 rfl rfl).symm k) = ix3 g t k := funext fun a => Fin.ext (by
    match a with
    | ⟨0, _⟩ => exact rhs_logits1_0 _ _
    | ⟨1, _⟩ => exact rhs_logits1_1 _ _
    | ⟨2, _⟩ => exact (rhs_logits1_2 _ _).trans hk)
  rw [el, er]

/-! ## The local mix: [g, s, k] against [g, k, d]

Again the group is a batch coordinate; the row s is free on the left, the feature d free on the right, and the row k of
the group is contracted: the last axis of the left operand, the middle axis of the right. -/

theorem lhs_mix1_0 (i : S64x64x64.Idx) (q : dot_S64x64x64_S64x64x64_S64x64x64_2_1_1_2_0_0.contr.Idx) :
    (dot_S64x64x64_S64x64x64_S64x64x64_2_1_1_2_0_0.lhsIdx i q 0).val = (i 0).val := by
  unfold DotDims.lhsIdx
  rw [dif_pos (show (0 : Fin S64x64x64.rank) ∈ dot_S64x64x64_S64x64x64_S64x64x64_2_1_1_2_0_0.lhsBatch by decide)]
  rfl
theorem lhs_mix1_1 (i : S64x64x64.Idx) (q : dot_S64x64x64_S64x64x64_S64x64x64_2_1_1_2_0_0.contr.Idx) :
    (dot_S64x64x64_S64x64x64_S64x64x64_2_1_1_2_0_0.lhsIdx i q 1).val = (i 1).val := by
  unfold DotDims.lhsIdx
  rw [dif_neg (show ¬(1 : Fin S64x64x64.rank) ∈ dot_S64x64x64_S64x64x64_S64x64x64_2_1_1_2_0_0.lhsBatch by decide), dif_pos (show (1 : Fin S64x64x64.rank) ∈ dot_S64x64x64_S64x64x64_S64x64x64_2_1_1_2_0_0.lhsNonContracting by decide)]
  rfl
theorem lhs_mix1_2 (i : S64x64x64.Idx) (q : dot_S64x64x64_S64x64x64_S64x64x64_2_1_1_2_0_0.contr.Idx) :
    (dot_S64x64x64_S64x64x64_S64x64x64_2_1_1_2_0_0.lhsIdx i q 2).val = (q ⟨0, by decide⟩).val :=
  dot_S64x64x64_S64x64x64_S64x64x64_2_1_1_2_0_0.lhsIdx_val_of_single rfl i q
theorem rhs_mix1_0 (i : S64x64x64.Idx) (q : dot_S64x64x64_S64x64x64_S64x64x64_2_1_1_2_0_0.contr.Idx) :
    (dot_S64x64x64_S64x64x64_S64x64x64_2_1_1_2_0_0.rhsIdx i q 0).val = (i 0).val := by
  unfold DotDims.rhsIdx
  rw [dif_pos (show (0 : Fin S64x64x64.rank) ∈ dot_S64x64x64_S64x64x64_S64x64x64_2_1_1_2_0_0.rhsBatch by decide)]
  rfl
theorem rhs_mix1_1 (i : S64x64x64.Idx) (q : dot_S64x64x64_S64x64x64_S64x64x64_2_1_1_2_0_0.contr.Idx) :
    (dot_S64x64x64_S64x64x64_S64x64x64_2_1_1_2_0_0.rhsIdx i q 1).val = (q ⟨0, by decide⟩).val :=
  dot_S64x64x64_S64x64x64_S64x64x64_2_1_1_2_0_0.rhsIdx_val_of_single rfl i q
theorem rhs_mix1_2 (i : S64x64x64.Idx) (q : dot_S64x64x64_S64x64x64_S64x64x64_2_1_1_2_0_0.contr.Idx) :
    (dot_S64x64x64_S64x64x64_S64x64x64_2_1_1_2_0_0.rhsIdx i q 2).val = (i 2).val := by
  unfold DotDims.rhsIdx
  rw [dif_neg (show ¬(2 : Fin S64x64x64.rank) ∈ dot_S64x64x64_S64x64x64_S64x64x64_2_1_1_2_0_0.rhsBatch by decide), dif_pos (show (2 : Fin S64x64x64.rank) ∈ dot_S64x64x64_S64x64x64_S64x64x64_2_1_1_2_0_0.rhsNonContracting by decide)]
  rfl

/-- Entry (g, s, d) of the local mix's product sums, over the row k of the group, the left operand at (g, s, k) times the
    right operand at (g, k, d). -/
theorem mix1_dot_apply (l : FVec Ideal S64x64x64 .bf16) (r : FVec Ideal S64x64x64 .bf16) (g s d : Fin 64) :
    matmul dot_S64x64x64_S64x64x64_S64x64x64_2_1_1_2_0_0 none l r (constant S64x64x64 .f32 0x00000000#32) (ix3 g s d)
      = ∑ k : Fin 64, (l (ix3 g s k) : EReal) * (r (ix3 g k d) : EReal) := by
  simp only [matmul]
  rw [Ideal.matmul_constant_zero_apply, ← Equiv.sum_comp (ValueIdx.contrEquiv1 dot_S64x64x64_S64x64x64_S64x64x64_2_1_1_2_0_0 64 rfl rfl).symm]
  refine Finset.sum_congr rfl fun k _ => ?_
  have hk := ValueIdx.contrEquiv1_symm_val dot_S64x64x64_S64x64x64_S64x64x64_2_1_1_2_0_0 64 rfl rfl k
  have el : dot_S64x64x64_S64x64x64_S64x64x64_2_1_1_2_0_0.lhsIdx (ix3 g s d) ((ValueIdx.contrEquiv1 dot_S64x64x64_S64x64x64_S64x64x64_2_1_1_2_0_0 64 rfl rfl).symm k) = ix3 g s k := funext fun a => Fin.ext (by
    match a with
    | ⟨0, _⟩ => exact lhs_mix1_0 _ _
    | ⟨1, _⟩ => exact lhs_mix1_1 _ _
    | ⟨2, _⟩ => exact (lhs_mix1_2 _ _).trans hk)
  have er : dot_S64x64x64_S64x64x64_S64x64x64_2_1_1_2_0_0.rhsIdx (ix3 g s d) ((ValueIdx.contrEquiv1 dot_S64x64x64_S64x64x64_S64x64x64_2_1_1_2_0_0 64 rfl rfl).symm k) = ix3 g k d := funext fun a => Fin.ext (by
    match a with
    | ⟨0, _⟩ => exact rhs_mix1_0 _ _
    | ⟨1, _⟩ => exact (rhs_mix1_1 _ _).trans hk
    | ⟨2, _⟩ => exact rhs_mix1_2 _ _)
  rw [el, er]

/-! ## The coarse logits: [g, k] against [f, k]

No batch coordinate: the wide row g is free on the left, the wide row f free on the right, and the position k along the
wide rows, 4096 of them, is contracted on both. -/

theorem lhs_logits2_0 (i : S64x64.Idx) (q : dot_S64x4096_S64x4096_S64x64_1_1_0_0_n_n.contr.Idx) :
    (dot_S64x4096_S64x4096_S64x64_1_1_0_0_n_n.lhsIdx i q 0).val = (i 0).val := by
  unfold DotDims.lhsIdx
  rw [dif_neg (show ¬(0 : Fin S64x4096.rank) ∈ dot_S64x4096_S64x4096_S64x64_1_1_0_0_n_n.lhsBatch by decide), dif_pos (show (0 : Fin S64x4096.rank) ∈ dot_S64x4096_S64x4096_S64x64_1_1_0_0_n_n.lhsNonContracting by decide)]
  rfl
theorem lhs_logits2_1 (i : S64x64.Idx) (q : dot_S64x4096_S64x4096_S64x64_1_1_0_0_n_n.contr.Idx) :
    (dot_S64x4096_S64x4096_S64x64_1_1_0_0_n_n.lhsIdx i q 1).val = (q ⟨0, by decide⟩).val :=
  dot_S64x4096_S64x4096_S64x64_1_1_0_0_n_n.lhsIdx_val_of_single rfl i q
theorem rhs_logits2_0 (i : S64x64.Idx) (q : dot_S64x4096_S64x4096_S64x64_1_1_0_0_n_n.contr.Idx) :
    (dot_S64x4096_S64x4096_S64x64_1_1_0_0_n_n.rhsIdx i q 0).val = (i 1).val := by
  unfold DotDims.rhsIdx
  rw [dif_neg (show ¬(0 : Fin S64x4096.rank) ∈ dot_S64x4096_S64x4096_S64x64_1_1_0_0_n_n.rhsBatch by decide), dif_pos (show (0 : Fin S64x4096.rank) ∈ dot_S64x4096_S64x4096_S64x64_1_1_0_0_n_n.rhsNonContracting by decide)]
  rfl
theorem rhs_logits2_1 (i : S64x64.Idx) (q : dot_S64x4096_S64x4096_S64x64_1_1_0_0_n_n.contr.Idx) :
    (dot_S64x4096_S64x4096_S64x64_1_1_0_0_n_n.rhsIdx i q 1).val = (q ⟨0, by decide⟩).val :=
  dot_S64x4096_S64x4096_S64x64_1_1_0_0_n_n.rhsIdx_val_of_single rfl i q

/-- Entry (g, f) of the coarse logits' product sums, over the position k along a wide row, the left operand at (g, k)
    times the right operand at (f, k). -/
theorem logits2_dot_apply (l : FVec Ideal S64x4096 .bf16) (r : FVec Ideal S64x4096 .bf16) (g f : Fin 64) :
    matmul dot_S64x4096_S64x4096_S64x64_1_1_0_0_n_n none l r (constant S64x64 .f32 0x00000000#32) (ix2 g f)
      = ∑ k : Fin 4096, (l (ix2 g k) : EReal) * (r (ix2 f k) : EReal) := by
  simp only [matmul]
  rw [Ideal.matmul_constant_zero_apply, ← Equiv.sum_comp (ValueIdx.contrEquiv1 dot_S64x4096_S64x4096_S64x64_1_1_0_0_n_n 4096 rfl rfl).symm]
  refine Finset.sum_congr rfl fun k _ => ?_
  have hk := ValueIdx.contrEquiv1_symm_val dot_S64x4096_S64x4096_S64x64_1_1_0_0_n_n 4096 rfl rfl k
  have el : dot_S64x4096_S64x4096_S64x64_1_1_0_0_n_n.lhsIdx (ix2 g f) ((ValueIdx.contrEquiv1 dot_S64x4096_S64x4096_S64x64_1_1_0_0_n_n 4096 rfl rfl).symm k) = ix2 g k := funext fun a => Fin.ext (by
    match a with
    | ⟨0, _⟩ => exact lhs_logits2_0 _ _
    | ⟨1, _⟩ => exact (lhs_logits2_1 _ _).trans hk)
  have er : dot_S64x4096_S64x4096_S64x64_1_1_0_0_n_n.rhsIdx (ix2 g f) ((ValueIdx.contrEquiv1 dot_S64x4096_S64x4096_S64x64_1_1_0_0_n_n 4096 rfl rfl).symm k) = ix2 f k := funext fun a => Fin.ext (by
    match a with
    | ⟨0, _⟩ => exact rhs_logits2_0 _ _
    | ⟨1, _⟩ => exact (rhs_logits2_1 _ _).trans hk)
  rw [el, er]

/-! ## The coarse mix: [g, k] against [k, e]

A plain matrix product: the wide row g is free on the left, the position e free on the right, and the group k is
contracted: the last axis of the left operand, the first of the right. -/

theorem lhs_mix2_0 (i : S64x4096.Idx) (q : dot_S64x64_S64x4096_S64x4096_1_0_0_1_n_n.contr.Idx) :
    (dot_S64x64_S64x4096_S64x4096_1_0_0_1_n_n.lhsIdx i q 0).val = (i 0).val := by
  unfold DotDims.lhsIdx
  rw [dif_neg (show ¬(0 : Fin S64x64.rank) ∈ dot_S64x64_S64x4096_S64x4096_1_0_0_1_n_n.lhsBatch by decide), dif_pos (show (0 : Fin S64x64.rank) ∈ dot_S64x64_S64x4096_S64x4096_1_0_0_1_n_n.lhsNonContracting by decide)]
  rfl
theorem lhs_mix2_1 (i : S64x4096.Idx) (q : dot_S64x64_S64x4096_S64x4096_1_0_0_1_n_n.contr.Idx) :
    (dot_S64x64_S64x4096_S64x4096_1_0_0_1_n_n.lhsIdx i q 1).val = (q ⟨0, by decide⟩).val :=
  dot_S64x64_S64x4096_S64x4096_1_0_0_1_n_n.lhsIdx_val_of_single rfl i q
theorem rhs_mix2_0 (i : S64x4096.Idx) (q : dot_S64x64_S64x4096_S64x4096_1_0_0_1_n_n.contr.Idx) :
    (dot_S64x64_S64x4096_S64x4096_1_0_0_1_n_n.rhsIdx i q 0).val = (q ⟨0, by decide⟩).val :=
  dot_S64x64_S64x4096_S64x4096_1_0_0_1_n_n.rhsIdx_val_of_single rfl i q
theorem rhs_mix2_1 (i : S64x4096.Idx) (q : dot_S64x64_S64x4096_S64x4096_1_0_0_1_n_n.contr.Idx) :
    (dot_S64x64_S64x4096_S64x4096_1_0_0_1_n_n.rhsIdx i q 1).val = (i 1).val := by
  unfold DotDims.rhsIdx
  rw [dif_neg (show ¬(1 : Fin S64x4096.rank) ∈ dot_S64x64_S64x4096_S64x4096_1_0_0_1_n_n.rhsBatch by decide), dif_pos (show (1 : Fin S64x4096.rank) ∈ dot_S64x64_S64x4096_S64x4096_1_0_0_1_n_n.rhsNonContracting by decide)]
  rfl

/-- Entry (g, e) of the coarse mix's product sums, over the group k, the left operand at (g, k) times the right operand at
    (k, e). -/
theorem mix2_dot_apply (l : FVec Ideal S64x64 .bf16) (r : FVec Ideal S64x4096 .bf16) (g : Fin 64) (e : Fin 4096) :
    matmul dot_S64x64_S64x4096_S64x4096_1_0_0_1_n_n none l r (constant S64x4096 .f32 0x00000000#32) (ix2 g e)
      = ∑ k : Fin 64, (l (ix2 g k) : EReal) * (r (ix2 k e) : EReal) := by
  simp only [matmul]
  rw [Ideal.matmul_constant_zero_apply, ← Equiv.sum_comp (ValueIdx.contrEquiv1 dot_S64x64_S64x4096_S64x4096_1_0_0_1_n_n 64 rfl rfl).symm]
  refine Finset.sum_congr rfl fun k _ => ?_
  have hk := ValueIdx.contrEquiv1_symm_val dot_S64x64_S64x4096_S64x4096_1_0_0_1_n_n 64 rfl rfl k
  have el : dot_S64x64_S64x4096_S64x4096_1_0_0_1_n_n.lhsIdx (ix2 g e) ((ValueIdx.contrEquiv1 dot_S64x64_S64x4096_S64x4096_1_0_0_1_n_n 64 rfl rfl).symm k) = ix2 g k := funext fun a => Fin.ext (by
    match a with
    | ⟨0, _⟩ => exact lhs_mix2_0 _ _
    | ⟨1, _⟩ => exact (lhs_mix2_1 _ _).trans hk)
  have er : dot_S64x64_S64x4096_S64x4096_1_0_0_1_n_n.rhsIdx (ix2 g e) ((ValueIdx.contrEquiv1 dot_S64x64_S64x4096_S64x4096_1_0_0_1_n_n 64 rfl rfl).symm k) = ix2 k e := funext fun a => Fin.ext (by
    match a with
    | ⟨0, _⟩ => exact (rhs_mix2_0 _ _).trans hk
    | ⟨1, _⟩ => exact rhs_mix2_1 _ _)
  rw [el, er]

end Cert.KernelIdeal.Dots

end
-- ==== Proof.LibLastAxis.lean ====
/-
  General lemmas on a reduction along the LAST axis of an array, read at the extended reals.

  * The index of the source that lies over an entry of the result, with the reduced coordinate k put back, is the entry's
    coordinates followed by k (ranks two to five).
  * A kernel's maximum along the last axis of an [A, B] or [A, B, C] array has, at an entry, the fold of `max` from the
    accumulator's value over k of the entries of that row; its sum along the last axis, the sum over k of them.
  * The host's reduce with a maximum body along the last axis of an [A, B, C, D] or [A, B, C, D, E] array has, at an entry,
    the fold of `max` from the initial value's element over k of the entries of that row.
-/
import Idealize.ShloMosaic.PureOps.Ideal.Laws
import Idealize.ShloMosaic.Lib.ValueIdx

noncomputable section

namespace Idealize.ShloMosaic.LastAxis

open Idealize.ShloMosaic Idealize.ShloMosaic.ValueIdx

variable {A B C D E : Nat}

/-! ## The reduced coordinate put back -/

/-- Over the entry p of the result, with the coordinate k put back at the end: the index (p, k). -/
theorem lift_last2 (h : Shape.Reduces (⟨2, ![A, B]⟩ : Shape) [1] (⟨1, ![A]⟩ : Shape)) (p : Fin A) (k : Fin B) :
    h.lift (ix1 p) k = ix2 p k := by
  funext a
  exact Fin.ext (by match a with | ⟨0, _⟩ => rfl | ⟨1, _⟩ => rfl)

/-- Over the entry (p, q): the index (p, q, k). -/
theorem lift_last3 (h : Shape.Reduces (⟨3, ![A, B, C]⟩ : Shape) [2] (⟨2, ![A, B]⟩ : Shape)) (p : Fin A) (q : Fin B) (k : Fin C) :
    h.lift (ix2 p q) k = ix3 p q k := by
  funext a
  exact Fin.ext (by match a with | ⟨0, _⟩ => rfl | ⟨1, _⟩ => rfl | ⟨2, _⟩ => rfl)

/-- Over the entry (p, q, r): the index (p, q, r, k). -/
theorem lift_last4 (h : Shape.Reduces (⟨4, ![A, B, C, D]⟩ : Shape) [3] (⟨3, ![A, B, C]⟩ : Shape)) (p : Fin A) (q : Fin B) (r : Fin C)
    (k : Fin D) : h.lift (ix3 p q r) k = ix4 p q r k := by
  funext a
  exact Fin.ext (by match a with | ⟨0, _⟩ => rfl | ⟨1, _⟩ => rfl | ⟨2, _⟩ => rfl | ⟨3, _⟩ => rfl)

/-- Over the entry (p, q, r, s): the index (p, q, r, s, k). -/
theorem lift_last5 (h : Shape.Reduces (⟨5, ![A, B, C, D, E]⟩ : Shape) [4] (⟨4, ![A, B, C, D]⟩ : Shape)) (p : Fin A) (q : Fin B)
    (r : Fin C) (s : Fin D) (k : Fin E) : h.lift (ix4 p q r s) k = ix5 p q r s k := by
  funext a
  exact Fin.ext (by match a with | ⟨0, _⟩ => rfl | ⟨1, _⟩ => rfl | ⟨2, _⟩ => rfl | ⟨3, _⟩ => rfl | ⟨4, _⟩ => rfl)

/-! ## A kernel's maximum and sum along the last axis -/

/-- The maximum of each row of an [A, B] array: at p, the fold of `max` from the accumulator's value over the row. -/
theorem lastMax2_apply {φ : FTy} (src : FVec Ideal (⟨2, ![A, B]⟩ : Shape) φ) (acc : BitVec φ.bits)
    (h : Shape.Reduces (⟨2, ![A, B]⟩ : Shape) [1] (⟨1, ![A]⟩ : Shape)) (hφ : FKind.Formats φ)
    (hacc : acc = FKind.maximumf.neutral φ hφ) (p : Fin A) :
    multiReduction .maximumf [1] (⟨1, ![A]⟩ : Shape) src acc h hφ hacc (ix1 p)
      = (Finset.univ : Finset (Fin B)).fold max (FloatOps.ofBits (F := Ideal) φ acc) (fun k => (src (ix2 p k) : EReal)) := by
  refine (Ideal.multiReduction_maximumf_single src acc h hφ hacc (ix1 p)).trans ?_
  exact Finset.fold_congr fun k _ => congrArg src (lift_last2 h p k)

/-- The maximum of each row of an [A, B, C] array: at (p, q), the fold of `max` from the accumulator's value over the row. -/
theorem lastMax3_apply {φ : FTy} (src : FVec Ideal (⟨3, ![A, B, C]⟩ : Shape) φ) (acc : BitVec φ.bits)
    (h : Shape.Reduces (⟨3, ![A, B, C]⟩ : Shape) [2] (⟨2, ![A, B]⟩ : Shape)) (hφ : FKind.Formats φ)
    (hacc : acc = FKind.maximumf.neutral φ hφ) (p : Fin A) (q : Fin B) :
    multiReduction .maximumf [2] (⟨2, ![A, B]⟩ : Shape) src acc h hφ hacc (ix2 p q)
      = (Finset.univ : Finset (Fin C)).fold max (FloatOps.ofBits (F := Ideal) φ acc) (fun k => (src (ix3 p q k) : EReal)) := by
  refine (Ideal.multiReduction_maximumf_single src acc h hφ hacc (ix2 p q)).trans ?_
  exact Finset.fold_congr fun k _ => congrArg src (lift_last3 h p q k)

/-- The sum of each row of an [A, B] array. -/
theorem lastSum2_apply {φ : FTy} (src : FVec Ideal (⟨2, ![A, B]⟩ : Shape) φ) (acc : BitVec φ.bits)
    (h : Shape.Reduces (⟨2, ![A, B]⟩ : Shape) [1] (⟨1, ![A]⟩ : Shape)) (hφ : FKind.Formats φ)
    (hacc : acc = FKind.add.neutral φ hφ) (p : Fin A) :
    multiReduction .add [1] (⟨1, ![A]⟩ : Shape) src acc h hφ hacc (ix1 p) = ∑ k : Fin B, (src (ix2 p k) : EReal) := by
  refine (Ideal.multiReduction_add_single src acc h hφ hacc (ix1 p)).trans ?_
  exact Finset.sum_congr rfl fun k _ => congrArg src (lift_last2 h p k)

/-- The sum of each row of an [A, B, C] array. -/
theorem lastSum3_apply {φ : FTy} (src : FVec Ideal (⟨3, ![A, B, C]⟩ : Shape) φ) (acc : BitVec φ.bits)
    (h : Shape.Reduces (⟨3, ![A, B, C]⟩ : Shape) [2] (⟨2, ![A, B]⟩ : Shape)) (hφ : FKind.Formats φ)
    (hacc : acc = FKind.add.neutral φ hφ) (p : Fin A) (q : Fin B) :
    multiReduction .add [2] (⟨2, ![A, B]⟩ : Shape) src acc h hφ hacc (ix2 p q) = ∑ k : Fin C, (src (ix3 p q k) : EReal) := by
  refine (Ideal.multiReduction_add_single src acc h hφ hacc (ix2 p q)).trans ?_
  exact Finset.sum_congr rfl fun k _ => congrArg src (lift_last3 h p q k)

/-! ## The host's maximum along the last axis -/

/-- The host's reduce with a maximum body along the last axis of an [A, B, C, D] array, at the entry (p, q, r). -/
theorem hostLastMax4_apply {φ : FTy} {u : Shape} (x : (⟨4, ![A, B, C, D]⟩ : Shape).Idx → Ideal φ) (init : u.Idx → Ideal φ)
    (h' : Shape.ReducesTo (⟨4, ![A, B, C, D]⟩ : Shape) [3] (⟨3, ![A, B, C]⟩ : Shape))
    (h : Shape.Reduces (⟨4, ![A, B, C, D]⟩ : Shape) [3] (⟨3, ![A, B, C]⟩ : Shape)) (hu : 0 < u.numel) (p : Fin A) (q : Fin B) (r : Fin C) :
    Host.reduce (FloatOps.maximumf (F := Ideal) (φ := φ)) x init h' hu (ix3 p q r)
      = (Finset.univ : Finset (Fin D)).fold max (init (Shape.Idx.first hu) : EReal) (fun k => (x (ix4 p q r k) : EReal)) := by
  refine (Host.reduce_eq_fold_single _ x init h' h hu (ix3 p q r)).trans ?_
  exact Finset.fold_congr fun k _ => congrArg x (lift_last4 h p q r k)

/-- The host's reduce with a maximum body along the last axis of an [A, B, C, D, E] array, at the entry (p, q, r, s). -/
theorem hostLastMax5_apply {φ : FTy} {u : Shape} (x : (⟨5, ![A, B, C, D, E]⟩ : Shape).Idx → Ideal φ) (init : u.Idx → Ideal φ)
    (h' : Shape.ReducesTo (⟨5, ![A, B, C, D, E]⟩ : Shape) [4] (⟨4, ![A, B, C, D]⟩ : Shape))
    (h : Shape.Reduces (⟨5, ![A, B, C, D, E]⟩ : Shape) [4] (⟨4, ![A, B, C, D]⟩ : Shape)) (hu : 0 < u.numel) (p : Fin A) (q : Fin B) (r : Fin C)
    (s : Fin D) :
    Host.reduce (FloatOps.maximumf (F := Ideal) (φ := φ)) x init h' hu (ix4 p q r s)
      = (Finset.univ : Finset (Fin E)).fold max (init (Shape.Idx.first hu) : EReal) (fun k => (x (ix5 p q r s k) : EReal)) := by
  refine (Host.reduce_eq_fold_single _ x init h' h hu (ix4 p q r s)).trans ?_
  exact Finset.fold_congr fun k _ => congrArg x (lift_last5 h p q r s k)

end Idealize.ShloMosaic.LastAxis

end
-- ==== Proof.BridgeLocal.lean ====
/-
  The local attention: the kernel's stages on one (batch, head) slice against the reference's on the whole arrays.

  Within a group g of 64 rows both programs compute the same things in the same order: the logits of scaled query rows
  against key rows, each row's maximum guarded by -inf, the exponentials of the differences, their row sums, the quotients,
  and the mix of the group's value rows by those quotients. Stage by stage, the kernel's array at (g, s, ..) is the
  reference's at (b, h, g, s, ..): the sums run over the same coordinate with equal terms, the folds of `max` likewise, and
  the pointwise stages follow from the stages under them. Nothing is reordered and no law of arithmetic is used, so the
  finiteness of the inputs is never called on.
-/
import proofs.«180596_j34325378629691_1_alg».proof.Proof.BridgeRows
import proofs.«180596_j34325378629691_1_alg».proof.Proof.KDots
import proofs.«180596_j34325378629691_1_alg».proof.Proof.LibLastAxis

noncomputable section

namespace Cert.Bridge

open Idealize.ShloMosaic Idealize.ShloMosaic.ValueIdx Idealize.ShloMosaic.LastAxis
open Cert.KernelIdeal.Stages Cert.ReferenceIdeal.Read

variable {b : Fin 4} {h : Fin 16} {X0 X1 X2 : Arr} {x0 x1 x2 : Blk}

/-- The group (or stretch) a position `e` of a run of 4096 lies in. -/
def hi (e : Fin 4096) : Fin 64 := ⟨e.val / 64, by omega⟩
/-- Its place within that group. -/
def lo (e : Fin 4096) : Fin 64 := ⟨e.val % 64, by omega⟩

theorem hi_val (e : Fin 4096) : (hi e).val = e.val / 64 := rfl
theorem lo_val (e : Fin 4096) : (lo e).val = e.val % 64 := rfl

/-- A per-row value kept as a unit last axis and spread along the row again: at (g, s, t) it is the value of row (g, s). -/
theorem keep3_at (m : FVec Ideal Cert.KernelIdeal.S64x64 .f32) (g s t : Fin 64) :
    broadcastTo Cert.KernelIdeal.S64x64x64 (shapeCast Cert.KernelIdeal.S64x64x1 m Cert.KernelIdeal.Gen.shapeCasts_S64x64_S64x64x1)
      Cert.KernelIdeal.Gen.broadcasts_S64x64x1_S64x64x64 (ix3 g s t) = m (ix2 g s) := by
  refine (broadcastTo_apply _ _ (ix3 g s t) (ix3 g s (0 : Fin 1)) (fun a => ?_)).trans ?_
  · match a with
    | ⟨0, _⟩ => show g.val = if (64 : Nat) = 1 then 0 else g.val; rw [if_neg (by decide)]
    | ⟨1, _⟩ => show s.val = if (64 : Nat) = 1 then 0 else s.val; rw [if_neg (by decide)]
    | ⟨2, _⟩ => show 0 = if (1 : Nat) = 1 then 0 else t.val; rw [if_pos rfl]
  · exact shapeCast_apply m _ (ix3 g s (0 : Fin 1)) (ix2 g s) (by
      rw [Shape.rowMajor_val_two, Shape.rowMajor_val_three]
      show g.val * 64 + s.val = (g.val * 64 + s.val) * 1 + 0
      omega)

/-! ## Logits -/

/-- The local logits. -/
theorem logits1_eq (h0 : IsSlice b h X0 x0) (h1 : IsSlice b h X1 x1) (g s t : Fin 64) :
    logits1 x0 x1 (ix3 g s t) = val_main_v5 (F := Ideal) X0 X1 (ix5 b h g s t) := by
  rw [val_main_v5_apply]
  unfold logits1
  rw [Cert.KernelIdeal.Dots.logits1_dot_apply]
  refine Finset.sum_congr rfl fun k _ => ?_
  have eL : lidx_main_v5 (ix5 b h g s t) k = ix5 b h g s k := funext fun a => by
    match a with | ⟨0, _⟩ => rfl | ⟨1, _⟩ => rfl | ⟨2, _⟩ => rfl | ⟨3, _⟩ => rfl | ⟨4, _⟩ => rfl
  have eR : ridx_main_v5 (ix5 b h g s t) k = ix5 b h g t k := funext fun a => by
    match a with | ⟨0, _⟩ => rfl | ⟨1, _⟩ => rfl | ⟨2, _⟩ => rfl | ⟨3, _⟩ => rfl | ⟨4, _⟩ => rfl
  rw [eL, eR, val_main_v4_apply, val_main_v3_apply, val_main_cst_apply, ← qGrp_eq h0 g s k, ← kGrp_eq h1 g t k]
  rfl

/-! ## The softmax over t -/

/-- The guarded row maximum. -/
theorem max1_eq (h0 : IsSlice b h X0 x0) (h1 : IsSlice b h X1 x1) (g s : Fin 64) :
    max1 x0 x1 (ix2 g s) = val_main_v8 (F := Ideal) X0 X1 (ix4 b h g s) := by
  rw [val_main_v8_apply, val_main_v7_apply, val_main_cst_1_apply, Ideal.maximumf_def]
  have hR : Shape.Reduces Cert.ReferenceIdeal.S4x16x64x64x64 [4] Cert.ReferenceIdeal.S4x16x64x64 := by decide
  have eK : max1 x0 x1 (ix2 g s) = max (FloatOps.ofBits (F := Ideal) .f32 0xFF800000#32)
      ((Finset.univ : Finset (Fin 64)).fold max (FloatOps.ofBits (F := Ideal) .f32 0xFF800000#32)
        fun t => (logits1 x0 x1 (ix3 g s t) : EReal)) := by
    unfold max1
    rw [maximumf_apply, broadcast_apply]
    exact congrArg (max _) (lastMax3_apply (logits1 x0 x1) _ _ _ _ g s)
  have eR : val_main_v6 (F := Ideal) X0 X1 (ix4 b h g s)
      = (Finset.univ : Finset (Fin 64)).fold max (FloatOps.ofBits (F := Ideal) .f32 0xFF800000#32)
        fun t => (val_main_v5 (F := Ideal) X0 X1 (ix5 b h g s t) : EReal) := by
    unfold val_main_v6
    exact hostLastMax5_apply (val_main_v5 (F := Ideal) X0 X1) _ _ hR _ b h g s
  rw [eK, eR]
  exact congrArg (max _) (Finset.fold_congr fun t _ => logits1_eq h0 h1 g s t)

/-- The exponentials of the logits less their row maximum. -/
theorem exp1_eq (h0 : IsSlice b h X0 x0) (h1 : IsSlice b h X1 x1) (g s t : Fin 64) :
    exp1 x0 x1 (ix3 g s t) = val_main_v12 (F := Ideal) X0 X1 (ix5 b h g s t) := by
  rw [val_main_v12_apply, val_main_v11_apply, val_main_v10_apply, val_main_v9_apply]
  have e : idx_main_v9 (idx_main_v10 (ix5 b h g s t)) = ix4 b h g s := funext fun a => by
    match a with | ⟨0, _⟩ => rfl | ⟨1, _⟩ => rfl | ⟨2, _⟩ => rfl | ⟨3, _⟩ => rfl
  rw [e, ← max1_eq h0 h1 g s, ← logits1_eq h0 h1 g s t, ← keep3_at (max1 x0 x1) g s t]
  rfl

/-- Their row sums. -/
theorem den1_eq (h0 : IsSlice b h X0 x0) (h1 : IsSlice b h X1 x1) (g s : Fin 64) :
    den1 x0 x1 (ix2 g s) = val_main_v13 (F := Ideal) X0 X1 (ix4 b h g s) := by
  rw [val_main_v13_apply, val_main_cst_2_apply, Ideal.ofBits_def, Ideal.ofBits_zero_f32, zero_add]
  unfold den1
  refine (lastSum3_apply (exp1 x0 x1) _ _ _ _ g s).trans ?_
  refine Finset.sum_congr rfl fun t _ => ?_
  have e : idx_main_v13 (ix4 b h g s) t = ix5 b h g s t := funext fun a => by
    match a with | ⟨0, _⟩ => rfl | ⟨1, _⟩ => rfl | ⟨2, _⟩ => rfl | ⟨3, _⟩ => rfl | ⟨4, _⟩ => rfl
  rw [e]
  exact exp1_eq h0 h1 g s t

/-- The local attention weights. -/
theorem attn1_eq (h0 : IsSlice b h X0 x0) (h1 : IsSlice b h X1 x1) (g s t : Fin 64) :
    attn1 x0 x1 (ix3 g s t) = val_main_v16 (F := Ideal) X0 X1 (ix5 b h g s t) := by
  rw [val_main_v16_apply, val_main_v15_apply, val_main_v14_apply]
  have e : idx_main_v14 (idx_main_v15 (ix5 b h g s t)) = ix4 b h g s := funext fun a => by
    match a with | ⟨0, _⟩ => rfl | ⟨1, _⟩ => rfl | ⟨2, _⟩ => rfl | ⟨3, _⟩ => rfl
  rw [e, ← den1_eq h0 h1 g s, ← exp1_eq h0 h1 g s t, ← keep3_at (den1 x0 x1) g s t]
  rfl

/-! ## The mix of value rows -/

/-- The local mix. -/
theorem mix1_eq (h0 : IsSlice b h X0 x0) (h1 : IsSlice b h X1 x1) (h2 : IsSlice b h X2 x2) (g s d : Fin 64) :
    mix1 x0 x1 x2 (ix3 g s d) = val_main_v17 (F := Ideal) X0 X1 X2 (ix5 b h g s d) := by
  rw [val_main_v17_apply]
  unfold mix1
  rw [Cert.KernelIdeal.Dots.mix1_dot_apply]
  refine Finset.sum_congr rfl fun k _ => ?_
  have eL : lidx_main_v17 (ix5 b h g s d) k = ix5 b h g s k := funext fun a => by
    match a with | ⟨0, _⟩ => rfl | ⟨1, _⟩ => rfl | ⟨2, _⟩ => rfl | ⟨3, _⟩ => rfl | ⟨4, _⟩ => rfl
  have eR : ridx_main_v17 (ix5 b h g s d) k = ix5 b h g k d := funext fun a => by
    match a with | ⟨0, _⟩ => rfl | ⟨1, _⟩ => rfl | ⟨2, _⟩ => rfl | ⟨3, _⟩ => rfl | ⟨4, _⟩ => rfl
  rw [eL, eR, ← attn1_eq h0 h1 g s k, ← vGrp_eq h2 g k d]
  rfl

/-- The reference's wide rows of the local mix sit over entry (hi e, lo e) of group g. -/
theorem idx_mixWide (g : Fin 64) (e : Fin 4096) : idx_main_v18 (ix4 b h g e) = ix5 b h g (hi e) (lo e) := by
  funext a
  match a with
  | ⟨0, _⟩ => exact Fin.ext (by show (((b.val * 16 + h.val) * 64 + g.val) * 4096 + e.val) / 4194304 = b.val; omega)
  | ⟨1, _⟩ => exact Fin.ext (by show (((b.val * 16 + h.val) * 64 + g.val) * 4096 + e.val) / 262144 % 16 = h.val; omega)
  | ⟨2, _⟩ => exact Fin.ext (by show (((b.val * 16 + h.val) * 64 + g.val) * 4096 + e.val) / 4096 % 64 = g.val; omega)
  | ⟨3, _⟩ => exact Fin.ext (by show (((b.val * 16 + h.val) * 64 + g.val) * 4096 + e.val) / 64 % 64 = e.val / 64; omega)
  | ⟨4, _⟩ => exact Fin.ext (by show (((b.val * 16 + h.val) * 64 + g.val) * 4096 + e.val) % 64 = e.val % 64; omega)

/-- The local mix with each group's rows laid end to end. -/
theorem mix1Wide_eq (h0 : IsSlice b h X0 x0) (h1 : IsSlice b h X1 x1) (h2 : IsSlice b h X2 x2) (g : Fin 64) (e : Fin 4096) :
    mix1Wide x0 x1 x2 (ix2 g e) = val_main_v18 (F := Ideal) X0 X1 X2 (ix4 b h g e) := by
  rw [val_main_v18_apply, idx_mixWide, ← mix1_eq h0 h1 h2 g (hi e) (lo e)]
  unfold mix1Wide
  exact shapeCast_apply _ _ (ix2 g e) (ix3 g (hi e) (lo e)) (by
    rw [Shape.rowMajor_val_three, Shape.rowMajor_val_two]
    show (g.val * 64 + e.val / 64) * 64 + e.val % 64 = g.val * 4096 + e.val
    omega)

end Cert.Bridge

end
-- ==== Proof.BridgeCoarse.lean ====
/-
  The coarse attention, and the block a grid point stores, against the reference's result.

  Both programs read a slice's rows again as 64 wide rows of 4096 entries, take the logits of scaled wide query rows against
  wide key rows, a second softmax over the 64 groups, and mix the wide rows of the local result by its quotients; the
  mixed wide rows, read once more as 4096 rows of 64, are the slice of the result. Stage by stage the kernel's array at
  (g, ..) is the reference's at (b, h, g, ..), as for the local attention; the last lemma composes every stage: the entry
  (n, d) of the block the body stores is the entry (b, h, n, d) of the reference's result.
-/
import proofs.«180596_j34325378629691_1_alg».proof.Proof.BridgeLocal

noncomputable section

namespace Cert.Bridge

open Idealize.ShloMosaic Idealize.ShloMosaic.ValueIdx Idealize.ShloMosaic.LastAxis
open Cert.KernelIdeal.Stages Cert.ReferenceIdeal.Read

variable {b : Fin 4} {h : Fin 16} {X0 X1 X2 : Arr} {x0 x1 x2 : Blk}

/-! ## Wide rows -/

/-- A [4096, 64] matrix read as 64 wide rows: position e of wide row g is entry `e % 64` of row `64 g + e / 64`. -/
theorem wideE_at (y : FVec Ideal Cert.KernelIdeal.S4096x64 .f32) (g : Fin 64) (e : Fin 4096) :
    shapeCast Cert.KernelIdeal.S64x4096 y Cert.KernelIdeal.Gen.shapeCasts_S4096x64_S64x4096 (ix2 g e) = y (ix2 (cat g (hi e)) (lo e)) :=
  shapeCast_apply y _ (ix2 g e) (ix2 (cat g (hi e)) (lo e)) (by
    rw [Shape.rowMajor_val_two, Shape.rowMajor_val_two]
    show (g.val * 64 + e.val / 64) * 64 + e.val % 64 = g.val * 4096 + e.val
    omega)

/-- The reference's wide rows of an argument sit over the same entry of the slice. -/
theorem idx_wide (g : Fin 64) (e : Fin 4096) : idx_main_v19 (ix4 b h g e) = ix4 b h (cat g (hi e)) (lo e) := by
  funext a
  match a with
  | ⟨0, _⟩ => exact Fin.ext (by show (((b.val * 16 + h.val) * 64 + g.val) * 4096 + e.val) / 4194304 = b.val; omega)
  | ⟨1, _⟩ => exact Fin.ext (by show (((b.val * 16 + h.val) * 64 + g.val) * 4096 + e.val) / 262144 % 16 = h.val; omega)
  | ⟨2, _⟩ => exact Fin.ext (by show (((b.val * 16 + h.val) * 64 + g.val) * 4096 + e.val) / 64 % 4096 = g.val * 64 + e.val / 64; omega)
  | ⟨3, _⟩ => exact Fin.ext (by show (((b.val * 16 + h.val) * 64 + g.val) * 4096 + e.val) % 64 = e.val % 64; omega)

/-- The wide query rows. -/
theorem qWide_eq {X : Arr} {x : Blk} (hx : IsSlice b h X x) (g : Fin 64) (e : Fin 4096) :
    qWide x (ix2 g e) = val_main_v19 (F := Ideal) X (ix4 b h g e) := by
  rw [val_main_v19_apply, idx_wide]
  exact (wideE_at _ g e).trans ((rows_at x _ _).trans (hx _ _))

/-- The wide key rows. -/
theorem kWide_eq {X : Arr} {x : Blk} (hx : IsSlice b h X x) (g : Fin 64) (e : Fin 4096) :
    kWide x (ix2 g e) = val_main_v22 (F := Ideal) X (ix4 b h g e) := by
  rw [val_main_v22_apply]
  exact (wideE_at _ g e).trans ((rows_at x _ _).trans ((hx _ _).trans (congrArg X (idx_wide g e).symm)))

/-- A per-row value kept as a unit last axis and spread along the row again: at (g, f) it is the value of row g. -/
theorem keep2_at (m : FVec Ideal Cert.KernelIdeal.S64 .f32) (g f : Fin 64) :
    broadcastTo Cert.KernelIdeal.S64x64 (shapeCast Cert.KernelIdeal.S64x1 m Cert.KernelIdeal.Gen.shapeCasts_S64_S64x1)
      Cert.KernelIdeal.Gen.broadcasts_S64x1_S64x64 (ix2 g f) = m (ix1 g) := by
  refine (broadcastTo_apply _ _ (ix2 g f) (ix2 g (0 : Fin 1)) (fun a => ?_)).trans ?_
  · match a with
    | ⟨0, _⟩ => show g.val = if (64 : Nat) = 1 then 0 else g.val; rw [if_neg (by decide)]
    | ⟨1, _⟩ => show 0 = if (1 : Nat) = 1 then 0 else f.val; rw [if_pos rfl]
  · exact shapeCast_apply m _ (ix2 g (0 : Fin 1)) (ix1 g) (by
      rw [Shape.rowMajor_val_one, Shape.rowMajor_val_two]
      show g.val = g.val * 1 + 0
      omega)

/-! ## Logits -/

/-- The coarse logits. -/
theorem logits2_eq (h0 : IsSlice b h X0 x0) (h1 : IsSlice b h X1 x1) (g f : Fin 64) :
    logits2 x0 x1 (ix2 g f) = val_main_v23 (F := Ideal) X0 X1 (ix4 b h g f) := by
  rw [val_main_v23_apply]
  unfold logits2
  rw [Cert.KernelIdeal.Dots.logits2_dot_apply]
  refine Finset.sum_congr rfl fun k _ => ?_
  have eL : lidx_main_v23 (ix4 b h g f) k = ix4 b h g k := funext fun a => by
    match a with | ⟨0, _⟩ => rfl | ⟨1, _⟩ => rfl | ⟨2, _⟩ => rfl | ⟨3, _⟩ => rfl
  have eR : ridx_main_v23 (ix4 b h g f) k = ix4 b h f k := funext fun a => by
    match a with | ⟨0, _⟩ => rfl | ⟨1, _⟩ => rfl | ⟨2, _⟩ => rfl | ⟨3, _⟩ => rfl
  rw [eL, eR, val_main_v21_apply, val_main_v20_apply, val_main_cst_3_apply, ← qWide_eq h0 g k, ← kWide_eq h1 f k]
  rfl

/-! ## The softmax over the groups -/

/-- The guarded row maximum. -/
theorem max2_eq (h0 : IsSlice b h X0 x0) (h1 : IsSlice b h X1 x1) (g : Fin 64) :
    max2 (rowMax2 x0 x1) (ix1 g) = val_main_v26 (F := Ideal) X0 X1 (ix3 b h g) := by
  rw [val_main_v26_apply, val_main_v25_apply, val_main_cst_5_apply, Ideal.maximumf_def]
  have hR : Shape.Reduces Cert.ReferenceIdeal.S4x16x64x64 [3] Cert.ReferenceIdeal.S4x16x64 := by decide
  have eK : max2 (rowMax2 x0 x1) (ix1 g) = max (FloatOps.ofBits (F := Ideal) .f32 0xFF800000#32)
      ((Finset.univ : Finset (Fin 64)).fold max (FloatOps.ofBits (F := Ideal) .f32 0xFF800000#32)
        fun f => (logits2 x0 x1 (ix2 g f) : EReal)) := by
    unfold max2 rowMax2
    rw [maximumf_apply, broadcast_apply]
    exact congrArg (max _) (lastMax2_apply (logits2 x0 x1) _ _ _ _ g)
  have eR : val_main_v24 (F := Ideal) X0 X1 (ix3 b h g)
      = (Finset.univ : Finset (Fin 64)).fold max (FloatOps.ofBits (F := Ideal) .f32 0xFF800000#32)
        fun f => (val_main_v23 (F := Ideal) X0 X1 (ix4 b h g f) : EReal) := by
    unfold val_main_v24
    exact hostLastMax4_apply (val_main_v23 (F := Ideal) X0 X1) _ _ hR _ b h g
  rw [eK, eR]
  exact congrArg (max _) (Finset.fold_congr fun f _ => logits2_eq h0 h1 g f)

/-- The exponentials of the logits less their row maximum. -/
theorem exp2_eq (h0 : IsSlice b h X0 x0) (h1 : IsSlice b h X1 x1) (g f : Fin 64) :
    exp2 (logits2 x0 x1) (rowMax2 x0 x1) (ix2 g f) = val_main_v30 (F := Ideal) X0 X1 (ix4 b h g f) := by
  rw [val_main_v30_apply, val_main_v29_apply, val_main_v28_apply, val_main_v27_apply]
  have e : idx_main_v27 (idx_main_v28 (ix4 b h g f)) = ix3 b h g := funext fun a => by
    match a with | ⟨0, _⟩ => rfl | ⟨1, _⟩ => rfl | ⟨2, _⟩ => rfl
  rw [e, ← max2_eq h0 h1 g, ← logits2_eq h0 h1 g f, ← keep2_at (max2 (rowMax2 x0 x1)) g f]
  rfl

/-- Their row sums. -/
theorem den2_eq (h0 : IsSlice b h X0 x0) (h1 : IsSlice b h X1 x1) (g : Fin 64) :
    den2 (logits2 x0 x1) (rowMax2 x0 x1) (ix1 g) = val_main_v31 (F := Ideal) X0 X1 (ix3 b h g) := by
  rw [val_main_v31_apply, val_main_cst_6_apply, Ideal.ofBits_def, Ideal.ofBits_zero_f32, zero_add]
  unfold den2
  refine (lastSum2_apply (exp2 (logits2 x0 x1) (rowMax2 x0 x1)) _ _ _ _ g).trans ?_
  refine Finset.sum_congr rfl fun f _ => ?_
  have e : idx_main_v31 (ix3 b h g) f = ix4 b h g f := funext fun a => by
    match a with | ⟨0, _⟩ => rfl | ⟨1, _⟩ => rfl | ⟨2, _⟩ => rfl | ⟨3, _⟩ => rfl
  rw [e]
  exact exp2_eq h0 h1 g f

/-- The coarse attention weights. -/
theorem attn2_eq (h0 : IsSlice b h X0 x0) (h1 : IsSlice b h X1 x1) (g f : Fin 64) :
    attn2 (logits2 x0 x1) (rowMax2 x0 x1) (ix2 g f) = val_main_v34 (F := Ideal) X0 X1 (ix4 b h g f) := by
  rw [val_main_v34_apply, val_main_v33_apply, val_main_v32_apply]
  have e : idx_main_v32 (idx_main_v33 (ix4 b h g f)) = ix3 b h g := funext fun a => by
    match a with | ⟨0, _⟩ => rfl | ⟨1, _⟩ => rfl | ⟨2, _⟩ => rfl
  rw [e, ← den2_eq h0 h1 g, ← exp2_eq h0 h1 g f, ← keep2_at (den2 (logits2 x0 x1) (rowMax2 x0 x1)) g f]
  rfl

/-! ## The mix of the wide local rows, and the block stored -/

/-- The coarse mix. -/
theorem mix2_eq (h0 : IsSlice b h X0 x0) (h1 : IsSlice b h X1 x1) (h2 : IsSlice b h X2 x2) (g : Fin 64) (e : Fin 4096) :
    mix2 (mix1Wide x0 x1 x2) (logits2 x0 x1) (rowMax2 x0 x1) (ix2 g e) = val_main_v35 (F := Ideal) X0 X1 X2 (ix4 b h g e) := by
  rw [val_main_v35_apply]
  unfold mix2
  rw [Cert.KernelIdeal.Dots.mix2_dot_apply]
  refine Finset.sum_congr rfl fun k _ => ?_
  have eL : lidx_main_v35 (ix4 b h g e) k = ix4 b h g k := funext fun a => by
    match a with | ⟨0, _⟩ => rfl | ⟨1, _⟩ => rfl | ⟨2, _⟩ => rfl | ⟨3, _⟩ => rfl
  have eR : ridx_main_v35 (ix4 b h g e) k = ix4 b h k e := funext fun a => by
    match a with | ⟨0, _⟩ => rfl | ⟨1, _⟩ => rfl | ⟨2, _⟩ => rfl | ⟨3, _⟩ => rfl
  rw [eL, eR, ← attn2_eq h0 h1 g k, ← mix1Wide_eq h0 h1 h2 k e]
  rfl

/-- The reference's result rows sit over position `64 (n % 64) + d` of wide row `n / 64`. -/
theorem idx_out (n : Fin 4096) (d : Fin 64) : idx_main_v36 (ix4 b h n d) = ix4 b h (hi n) (cat (lo n) d) := by
  funext a
  match a with
  | ⟨0, _⟩ => exact Fin.ext (by show (((b.val * 16 + h.val) * 4096 + n.val) * 64 + d.val) / 4194304 = b.val; omega)
  | ⟨1, _⟩ => exact Fin.ext (by show (((b.val * 16 + h.val) * 4096 + n.val) * 64 + d.val) / 262144 % 16 = h.val; omega)
  | ⟨2, _⟩ => exact Fin.ext (by show (((b.val * 16 + h.val) * 4096 + n.val) * 64 + d.val) / 4096 % 64 = n.val / 64; omega)
  | ⟨3, _⟩ => exact Fin.ext (by show (((b.val * 16 + h.val) * 4096 + n.val) * 64 + d.val) % 4096 = n.val % 64 * 64 + d.val; omega)

/-- The block stored, entry by entry, is the slice of the reference's result. -/
theorem outBlock_eq (h0 : IsSlice b h X0 x0) (h1 : IsSlice b h X1 x1) (h2 : IsSlice b h X2 x2) (n : Fin 4096) (d : Fin 64) :
    outBlock (mix1Wide x0 x1 x2) (logits2 x0 x1) (rowMax2 x0 x1) (ix4 0 0 n d)
      = val_main_v36 (F := Ideal) X0 X1 X2 (ix4 b h n d) := by
  rw [val_main_v36_apply, idx_out, ← mix2_eq h0 h1 h2 (hi n) (cat (lo n) d)]
  unfold outBlock
  refine (shapeCast_apply _ _ (ix4 0 0 n d) (ix2 n d) (by
    rw [Shape.rowMajor_val_two, Shape.rowMajor_val_four]
    show n.val * 64 + d.val = ((0 * 1 + 0) * 4096 + n.val) * 64 + d.val
    omega)).trans ?_
  exact shapeCast_apply _ _ (ix2 n d) (ix2 (hi n) (cat (lo n) d)) (by
    rw [Shape.rowMajor_val_two, Shape.rowMajor_val_two]
    show n.val / 64 * 4096 + (n.val % 64 * 64 + d.val) = n.val * 64 + d.val
    omega)

/-- The body's payload at the blocks of a grid point: the slice of the reference's result. -/
theorem payload_eq (h0 : IsSlice b h X0 x0) (h1 : IsSlice b h X1 x1) (h2 : IsSlice b h X2 x2) (n : Fin 4096) (d : Fin 64) :
    Cert.KernelIdeal.Gen.k0_pay1 (F := Ideal) (Cert.KernelIdeal.Gen.k0_pay4 x0 x1 x2) (Cert.KernelIdeal.Gen.k0_pay5 x0 x1)
        (Cert.KernelIdeal.Gen.k0_pay6 x0 x1) (ix4 0 0 n d)
      = val_main_v36 (F := Ideal) X0 X1 X2 (ix4 b h n d) :=
  outBlock_eq h0 h1 h2 n d

/-- The same at any index of the block: its two leading coordinates are 0, the other two name the row and the entry. -/
theorem payload_at (h0 : IsSlice b h X0 x0) (h1 : IsSlice b h X1 x1) (h2 : IsSlice b h X2 x2) (j : Cert.KernelIdeal.S1x1x4096x64.Idx) :
    Cert.KernelIdeal.Gen.k0_pay1 (F := Ideal) (Cert.KernelIdeal.Gen.k0_pay4 x0 x1 x2) (Cert.KernelIdeal.Gen.k0_pay5 x0 x1)
        (Cert.KernelIdeal.Gen.k0_pay6 x0 x1) j
      = val_main_v36 (F := Ideal) X0 X1 X2 (ix4 b h (j 2) (j 3)) := by
  have hj : j = ix4 (0 : Fin 1) (0 : Fin 1) (j 2) (j 3) := funext fun a => by
    match a with
    | ⟨0, _⟩ => exact Fin.ext (by show (j 0).val = 0; have h : (j 0).val < 1 := (j 0).isLt; omega)
    | ⟨1, _⟩ => exact Fin.ext (by show (j 1).val = 0; have h : (j 1).val < 1 := (j 1).isLt; omega)
    | ⟨2, _⟩ => rfl
    | ⟨3, _⟩ => rfl
  exact (congrArg _ hj).trans (payload_eq h0 h1 h2 (j 2) (j 3))

end Cert.Bridge

end
-- ==== Proof.KernelValue.lean ====
/-
  The kernel's result array, whole: the reference's function of the arguments.

  The grid has one point per (batch, head) pair; the point with block index (b, h, 0, 0) is handed the slices
  X[b, h, :, :] of the three arguments and writes back the slice [b, h, :, :] of the result. Every entry of what it writes
  is the reference's result at that entry of the whole array (the stages matched one by one before this module), the
  blocks of the 64 points tile the result, so after the run the result array is the reference's function of the
  argument arrays, entry by entry.
-/
import proofs.«180596_j34325378629691_1_alg».proof.Proof.BridgeCoarse
import proofs.«180596_j34325378629691_1_alg».proof.Proof.Gen.KernelIdeal.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0, 0, 0] : Fin 4 → Nat) = fun _ => 0 := funext fun a => by fin_cases a <;> rfl

/-! ## The arrays and the blocks -/

/-- The query, key and value arrays on core `c`. -/
abbrev argQ (c : Dev nD) : Cert.Bridge.Arr := m ((c : Thread nD τ).loc main_arg0)
abbrev argK (c : Dev nD) : Cert.Bridge.Arr := m ((c : Thread nD τ).loc main_arg1)
abbrev argV (c : Dev nD) : Cert.Bridge.Arr := m ((c : Thread nD τ).loc main_arg2)

/-- The result array as a function of the argument arrays: the reference's stages composed. -/
abbrev G (c : Dev nD) : S4x16x4096x64.Idx → Elt Ideal .f32 :=
  Cert.ReferenceIdeal.Read.val_main_v36 (F := Ideal) (argQ m c) (argK m c) (argV m c)

/-- The three blocks a grid point is handed. -/
abbrev qBlk (c : Dev nD) (t : Fin cfg0.N) : Cert.Bridge.Blk := iblk m c 0 t
abbrev kBlk (c : Dev nD) (t : Fin cfg0.N) : Cert.Bridge.Blk := iblk m c 1 t
abbrev vBlk (c : Dev nD) (t : Fin cfg0.N) : Cert.Bridge.Blk := iblk m c 2 t

/-! ## The grid -/

/-- The printed index maps, decided over the 64 points: every window's block index is (b, h, 0, 0) with b below 4 and h
    below 16, the same for the three inputs as for the output. -/
theorem idx_facts : ∀ t : Fin cfg0.N,
    win0_3.index t (0 : Fin 4) < 4 ∧ win0_3.index t (1 : Fin 4) < 16
    ∧ win0_3.index t (2 : Fin 4) = 0 ∧ win0_3.index t (3 : Fin 4) = 0
    ∧ win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_2.index t (0 : Fin 4) = win0_3.index t (0 : Fin 4) ∧ win0_2.index t (1 : Fin 4) = win0_3.index t (1 : Fin 4)
    ∧ win0_2.index t (2 : Fin 4) = 0 ∧ win0_2.index t (3 : Fin 4) = 0 :=
  (by decide +kernel : ∀ t : Fin grid0.N, _)

/-- Every (b, h) is some point's. -/
theorem idx_onto : ∀ (q0 : Fin 4) (q1 : Fin 16), ∃ t : Fin cfg0.N, win0_3.index t = ![q0.val, q1.val, 0, 0] :=
  (by decide +kernel : ∀ (q0 : Fin 4) (q1 : Fin 16), ∃ t : Fin grid0.N, win0_3.index t = ![q0.val, q1.val, 0, 0])

/-- The batch coordinate of point `t`. -/
def bOf (t : Fin cfg0.N) : Fin 4 := ⟨win0_3.index t (0 : Fin 4), (idx_facts t).1⟩
/-- The head coordinate of point `t`. -/
def hOf (t : Fin cfg0.N) : Fin 16 := ⟨win0_3.index t (1 : Fin 4), (idx_facts t).2.1⟩

/-! ## The blocks are slices -/

theorem qBlk_slice (c : Dev nD) (t : Fin cfg0.N) : Cert.Bridge.IsSlice (bOf t) (hOf t) (argQ m c) (qBlk m c t) := by
  intro n d
  obtain ⟨_, _, _, _, f0, f1, f2, f3, _⟩ := idx_facts t
  show m ((c : Thread nD τ).loc main_arg0) (((cfg0.win 0).blk t).view.emb (ix4 0 0 n d))
    = m ((c : Thread nD τ).loc main_arg0) (ix4 (bOf t) (hOf t) n d)
  refine congrArg (m ((c : Thread nD τ).loc main_arg0)) (funext fun a => Fin.ext ?_)
  match a with
  | ⟨0, _⟩ => show win0_0.index t (0 : Fin 4) * 1 + 1 * 0 = win0_3.index t (0 : Fin 4); omega
  | ⟨1, _⟩ => show win0_0.index t (1 : Fin 4) * 1 + 1 * 0 = win0_3.index t (1 : Fin 4); omega
  | ⟨2, _⟩ => show win0_0.index t (2 : Fin 4) * 4096 + 1 * n.val = n.val; omega
  | ⟨3, _⟩ => show win0_0.index t (3 : Fin 4) * 64 + 1 * d.val = d.val; omega

theorem kBlk_slice (c : Dev nD) (t : Fin cfg0.N) : Cert.Bridge.IsSlice (bOf t) (hOf t) (argK m c) (kBlk m c t) := by
  intro n d
  obtain ⟨_, _, _, _, _, _, _, _, f0, f1, f2, f3, _⟩ := idx_facts t
  show m ((c : Thread nD τ).loc main_arg1) (((cfg0.win 1).blk t).view.emb (ix4 0 0 n d))
    = m ((c : Thread nD τ).loc main_arg1) (ix4 (bOf t) (hOf t) n d)
  refine congrArg (m ((c : Thread nD τ).loc main_arg1)) (funext fun a => Fin.ext ?_)
  match a with
  | ⟨0, _⟩ => show win0_1.index t (0 : Fin 4) * 1 + 1 * 0 = win0_3.index t (0 : Fin 4); omega
  | ⟨1, _⟩ => show win0_1.index t (1 : Fin 4) * 1 + 1 * 0 = win0_3.index t (1 : Fin 4); omega
  | ⟨2, _⟩ => show win0_1.index t (2 : Fin 4) * 4096 + 1 * n.val = n.val; omega
  | ⟨3, _⟩ => show win0_1.index t (3 : Fin 4) * 64 + 1 * d.val = d.val; omega

theorem vBlk_slice (c : Dev nD) (t : Fin cfg0.N) : Cert.Bridge.IsSlice (bOf t) (hOf t) (argV m c) (vBlk m c t) := by
  intro n d
  obtain ⟨_, _, _, _, _, _, _, _, _, _, _, _, f0, f1, f2, f3⟩ := idx_facts t
  show m ((c : Thread nD τ).loc main_arg2) (((cfg0.win 2).blk t).view.emb (ix4 0 0 n d))
    = m ((c : Thread nD τ).loc main_arg2) (ix4 (bOf t) (hOf t) n d)
  refine congrArg (m ((c : Thread nD τ).loc main_arg2)) (funext fun a => Fin.ext ?_)
  match a with
  | ⟨0, _⟩ => show win0_2.index t (0 : Fin 4) * 1 + 1 * 0 = win0_3.index t (0 : Fin 4); omega
  | ⟨1, _⟩ => show win0_2.index t (1 : Fin 4) * 1 + 1 * 0 = win0_3.index t (1 : Fin 4); omega
  | ⟨2, _⟩ => show win0_2.index t (2 : Fin 4) * 4096 + 1 * n.val = n.val; omega
  | ⟨3, _⟩ => show win0_2.index t (3 : Fin 4) * 64 + 1 * d.val = d.val; omega

/-! ## What a point writes back, the cover, and the whole array -/

/-- What point `t` writes back is block `t` of `G`. -/
theorem flushed_eq (c : Dev nD) (t : Fin cfg0.N) :
    (dats m 0 c).flushed 3 t = ((cfg0.win 3).blk t).view.read (Elt Ideal) (G m c) := by
  rw [Cert.KernelIdeal.Value.flushed3]
  unfold out0_3
  rw [View.canon_unit_zero hz]
  simp only [View.ld_unit_zero (S := S1x1x4096x64) hz]
  obtain ⟨_, _, e2, e3, _⟩ := idx_facts t
  -- only where an index of the block sits in the array matters here: both sides are compared as functions of that index
  generalize hG : G m c = Gf
  generalize hP : k0_pay1 (F := Ideal) (k0_pay4 (iblk m c 0 t) (iblk m c 1 t) (iblk m c 2 t)) (k0_pay5 (iblk m c 0 t) (iblk m c 1 t))
      (k0_pay6 (iblk m c 0 t) (iblk m c 1 t)) = P
  funext j
  rw [View.read_apply, cast_eq]
  have hL : (win0 3).cut (grid0.coords t) P j = P ((win0 3).xinj (grid0.coords t) j) := rfl
  rw [hL]
  subst hP hG
  refine (Cert.Bridge.payload_at (qBlk_slice m c t) (kBlk_slice m c t) (vBlk_slice m c t) ((win0 3).xinj (grid0.coords t) j)).trans ?_
  refine congrArg (G m c) (funext fun a => Fin.ext ?_)
  match a with
  | ⟨0, _⟩ => show win0_3.index t (0 : Fin 4) = win0_3.index t (0 : Fin 4) * 1 + 1 * (j 0).val; have hj : (j 0).val < 1 := (j 0).isLt; omega
  | ⟨1, _⟩ => show win0_3.index t (1 : Fin 4) = win0_3.index t (1 : Fin 4) * 1 + 1 * (j 1).val; have hj : (j 1).val < 1 := (j 1).isLt; omega
  | ⟨2, _⟩ => show (j 2).val = win0_3.index t (2 : Fin 4) * 4096 + 1 * (j 2).val; omega
  | ⟨3, _⟩ => show (j 3).val = win0_3.index t (3 : Fin 4) * 64 + 1 * (j 3).val; omega

/-- An index of the array is in point `t`'s block iff each coordinate is in the block's range on its axis. -/
theorem mem_blk (t : Fin cfg0.N) (i : S4x16x4096x64.Idx) :
    i ∈ ((cfg0.win 3).blk t).view.set ↔ ∀ a : Fin 4, win0_3.index t a * S1x1x4096x64.size a ≤ (i a).val
      ∧ (i a).val < win0_3.index t a * S1x1x4096x64.size a + S1x1x4096x64.size a := by
  show i ∈ ((View.whole main_v0).slice (win0_3.rect t)).set ↔ _
  rw [View.set_slice_whole, Rect.mem_set_unit]
  exact Iff.rfl

/-- Every index of the result lies in the block of the point with its two leading coordinates. -/
theorem cover (i : S4x16x4096x64.Idx) : ∃ t : Fin cfg0.N, (cfg0.win 3).flush t = true ∧ i ∈ ((cfg0.win 3).blk t).view.set := by
  have hi0 : (i 0).val < 4 := (i 0).isLt
  have hi1 : (i 1).val < 16 := (i 1).isLt
  have hi2 : (i 2).val < 4096 := (i 2).isLt
  have hi3 : (i 3).val < 64 := (i 3).isLt
  obtain ⟨t, ht⟩ := idx_onto ⟨(i 0).val, hi0⟩ ⟨(i 1).val, hi1⟩
  have q0 : win0_3.index t (0 : Fin 4) = (i 0).val := congrFun ht 0
  have q1 : win0_3.index t (1 : Fin 4) = (i 1).val := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 4096 ≤ (i 2).val ∧ (i 2).val < win0_3.index t (2 : Fin 4) * 4096 + 4096; omega
  | ⟨3, _⟩ => show win0_3.index t (3 : Fin 4) * 64 ≤ (i 3).val ∧ (i 3).val < win0_3.index t (3 : Fin 4) * 64 + 64; omega

/-- After the run the result array is `G` of the argument arrays. -/
theorem final (c : Dev nD) : (dats m 0 c).arrAt 3 cfg0.N = G m c :=
  (dats m 0 c).arrAt_eq_of_cover 3 (G m c) (fun t _ => flushed_eq m c t) cover

/-! ## The run, read -/

/-- Every weakly fair execution ends with the result array at the reference's function of the arguments, the arguments
    unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Whole

end
-- ==== Proof.lean ====
/-
  Block-local attention followed by block-summary attention, one (batch, head) slice per grid point, against its jnp
  reference: the proof of the claim.

  For Q, K, V of shape [4, 16, 4096, 64] both programs split each slice's 4096 rows into 64 groups of 64. Within a group
  they take softmax over t of (sum over d of Q[s, d] * 2^-3 * K[t, d]) and mix the group's rows of V by it; they then read
  the slice as 64 wide rows of 4096 entries, take softmax over the groups f of (sum over e of Q'[g, e] * 2^-6 * K'[f, e]),
  and mix the wide rows of the local result by it. The kernel does this on the block of one (b, h) with its matrix products
  on narrowed operands; the reference does it on the whole arrays with (b, h) as leading batch coordinates.

  At the ideal values a narrowing is the identity and a matrix product is the plain sum, so the two programs compute the
  same arrays stage by stage, the kernel's at an index being the reference's at that index behind (b, h). Each softmax is
  written the same way on both sides (the row maximum guarded by -inf, the exponentials of the differences, their sum, the
  quotient), the two scales are the same powers of two, and no sum is reordered; so no law of arithmetic is needed and the
  precondition is never opened. The blocks of the 64 grid points tile the result array.

  The three frames are the generated ones (the reference's is its generated run with the result dropped); the kernel is
  printed at the ideal values with no rewrite, so the idealization conjunct is `True`.
-/
import proofs.«180596_j34325378629691_1_alg».proof.Defs
import proofs.«180596_j34325378629691_1_alg».proof.Proof.Gen.Kernel
import proofs.«180596_j34325378629691_1_alg».proof.Proof.Gen.Kernel.Skeleton
import proofs.«180596_j34325378629691_1_alg».proof.Proof.Gen.Kernel.Launch
import proofs.«180596_j34325378629691_1_alg».proof.Proof.Gen.Kernel.Points
import proofs.«180596_j34325378629691_1_alg».proof.Proof.Gen.Kernel.Frame
import proofs.«180596_j34325378629691_1_alg».proof.Proof.Gen.KernelIdeal
import proofs.«180596_j34325378629691_1_alg».proof.Proof.Gen.KernelIdeal.Skeleton
import proofs.«180596_j34325378629691_1_alg».proof.Proof.Gen.KernelIdeal.Launch
import proofs.«180596_j34325378629691_1_alg».proof.Proof.Gen.KernelIdeal.Points
import proofs.«180596_j34325378629691_1_alg».proof.Proof.Gen.KernelIdeal.Frame
import proofs.«180596_j34325378629691_1_alg».proof.Proof.Gen.ReferenceIdeal
import proofs.«180596_j34325378629691_1_alg».proof.Proof.Gen.Pre_finite_inputs
import proofs.«180596_j34325378629691_1_alg».proof.Proof.Gen.KernelIdeal.Value
import proofs.«180596_j34325378629691_1_alg».proof.Proof.Gen.ReferenceIdeal.Run
import proofs.«180596_j34325378629691_1_alg».proof.Proof.Gen.ReferenceIdeal.Read
import proofs.«180596_j34325378629691_1_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel at the ideal values. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on Q, K and V both programs end with the same result array: the kernel's is the
    reference's function of its arguments, and the arguments agree. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
